-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x16 : Shape := ⟨2, ![512, 16]⟩
abbrev S512 : Shape := ⟨1, ![512]⟩
abbrev S1 : Shape := ⟨1, ![1]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32x1 .f32) (main_arg12 : FVec F S1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg11
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128x64 .f32) (main_arg8 : FVec F S64 .f32) (main_arg9 : FVec F S64x32 .f32) (main_arg10 : FVec F S32 .f32) (main_arg11 : FVec F S32x1 .f32) (main_arg12 : FVec F S1 .f32) (main_arg13 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S1 .f32) (main_arg5 : FVec F S512x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_arg13 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x512 .f32) (main_arg1 : FVec F S512x16 .f32) (main_arg2 : FVec F S512x16 .f32) (main_arg3 : FVec F S512 .f32) (main_arg4 : FVec F S1 .f32) (main_arg5 : FVec F S512x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_arg13 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x512 : Shape := ⟨2, ![16384, 512]⟩
abbrev S512x16 : Shape := ⟨2, ![512, 16]⟩
abbrev S512 : Shape := ⟨1, ![512]⟩
abbrev S1 : Shape := ⟨1, ![1]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩
abbrev S16 : Shape := ⟨1, ![16]⟩
abbrev S1x16 : Shape := ⟨2, ![1, 16]⟩
abbrev S1x1 : Shape := ⟨2, ![1, 1]⟩
abbrev S512x1 : Shape := ⟨2, ![512, 1]⟩
abbrev S512x161 : Shape := ⟨2, ![512, 161]⟩
abbrev S1x128 : Shape := ⟨2, ![1, 128]⟩
abbrev S1x64 : Shape := ⟨2, ![1, 64]⟩
abbrev S1x32 : Shape := ⟨2, ![1, 32]⟩
abbrev S16384x1 : Shape := ⟨2, ![16384, 1]⟩
abbrev S2048x512 : Shape := ⟨2, ![2048, 512]⟩
abbrev S2048x1 : Shape := ⟨2, ![2048, 1]⟩
abbrev S2048x161 : Shape := ⟨2, ![2048, 161]⟩
abbrev S2048x16 : Shape := ⟨2, ![2048, 16]⟩
abbrev S2048x128 : Shape := ⟨2, ![2048, 128]⟩
abbrev S2048 : Shape := ⟨1, ![2048]⟩
abbrev S2048x64 : Shape := ⟨2, ![2048, 64]⟩
abbrev S2048x32 : Shape := ⟨2, ![2048, 32]⟩

abbrev nBuf : Space → Nat
  | .hbm => 37
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S512x16, .f32⟩
  | .hbm, ⟨2, _⟩ => ⟨S512x16, .f32⟩
  | .hbm, ⟨3, _⟩ => ⟨S512, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1, .f32⟩
  | .hbm, ⟨14, _⟩ => ⟨S512x16, .f32⟩
  | .hbm, ⟨15, _⟩ => ⟨S512x16, .f32⟩
  | .hbm, ⟨16, _⟩ => ⟨S_, .f32⟩
  | .hbm, ⟨17, _⟩ => ⟨S16, .f32⟩
  | .hbm, ⟨18, _⟩ => ⟨S1x16, .f32⟩
  | .hbm, ⟨19, _⟩ => ⟨S512x16, .f32⟩
  | .hbm, ⟨20, _⟩ => ⟨S_, .f32⟩
  | .hbm, ⟨21, _⟩ => ⟨S16, .f32⟩
  | .hbm, ⟨22, _⟩ => ⟨S1x16, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S512x1, .f32⟩
  | .hbm, ⟨27, _⟩ => ⟨S512x161, .f32⟩
  | .hbm, ⟨28, _⟩ => ⟨S512x161, .bf16⟩
  | .hbm, ⟨29, _⟩ => ⟨S512x16, .bf16⟩
  | .hbm, ⟨30, _⟩ => ⟨S128x64, .bf16⟩
  | .hbm, ⟨31, _⟩ => ⟨S64x32, .bf16⟩
  | .hbm, ⟨32, _⟩ => ⟨S32x1, .bf16⟩
  | .hbm, ⟨33, _⟩ => ⟨S1x128, .f32⟩
  | .hbm, ⟨34, _⟩ => ⟨S1x64, .f32⟩
  | .hbm, ⟨35, _⟩ => ⟨S1x32, .f32⟩
  | .hbm, ⟨36, _⟩ => ⟨S16384x1, .f32⟩
  | .local _ .vmem, ⟨0, _⟩ => ⟨S2048x512, .f32⟩
  | .local _ .vmem, ⟨1, _⟩ => ⟨S2048x512, .f32⟩
  | .local _ .vmem, ⟨2, _⟩ => ⟨S512x161, .bf16⟩
  | .local _ .vmem, ⟨3, _⟩ => ⟨S512x16, .bf16⟩
  | .local _ .vmem, ⟨4, _⟩ => ⟨S1x16, .f32⟩
  | .local _ .vmem, ⟨5, _⟩ => ⟨S1x16, .f32⟩
  | .local _ .vmem, ⟨6, _⟩ => ⟨S128x64, .bf16⟩
  | .local _ .vmem, ⟨7, _⟩ => ⟨S1x64, .f32⟩
  | .local _ .vmem, ⟨8, _⟩ => ⟨S64x32, .bf16⟩
  | .local _ .vmem, ⟨9, _⟩ => ⟨S1x32, .f32⟩
  | .local _ .vmem, ⟨10, _⟩ => ⟨S32x1, .bf16⟩
  | .local _ .vmem, ⟨11, _⟩ => ⟨S1x128, .f32⟩
  | .local _ .vmem, ⟨12, _⟩ => ⟨S1x1, .f32⟩
  | .local _ .vmem, ⟨13, _⟩ => ⟨S2048x1, .f32⟩
  | .local _ .vmem, ⟨14, _⟩ => ⟨S2048x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x161 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  reducesTo_S512x16_S16_d0 : S512x16.ReducesTo [0] S16
  h_S_ : 0 < S_.numel
  bcast_S16_S1x16_1 : S16.BroadcastsInDim S1x16 (![1] : Fin 1 → Fin S1x16.rank)
  shapeCasts_S1_S1x1 : S1.ShapeCasts S1x1
  bcast_S512_S512x1_0 : S512.BroadcastsInDim S512x1 (![0] : Fin 1 → Fin S512x1.rank)
  concatenates_S512x1_S512x16_S512x16_S512x128_S512x161_d1 : Shape.Concatenates [S512x1, S512x16, S512x16, S512x128] S512x161 1
  bitsLt_bf16_f32 : FTy.bits .bf16 < FTy.bits .f32
  shapeCasts_S128_S1x128 : S128.ShapeCasts S1x128
  shapeCasts_S64_S1x64 : S64.ShapeCasts S1x64
  shapeCasts_S32_S1x32 : S32.ShapeCasts S1x32
  inb_S2048x512_S2048x512_0_0 : ∀ a, (![0, 0] : Fin 2 → Nat) a + S2048x512.size a ≤ S2048x512.size a
  h_S2048x512 : 0 < S2048x512.numel
  inb_S512x161_S512x161_0_0 : ∀ a, (![0, 0] : Fin 2 → Nat) a + S512x161.size a ≤ S512x161.size a
  h_S512x161 : 0 < S512x161.numel
  shapeCasts_S512x161_S512x161 : S512x161.ShapeCasts S512x161
  inb_S512x16_S512x16_0_0 : ∀ a, (![0, 0] : Fin 2 → Nat) a + S512x16.size a ≤ S512x16.size a
  h_S512x16 : 0 < S512x16.numel
  shapeCasts_S512x16_S512x16 : S512x16.ShapeCasts S512x16
  slices_S2048x161_o0_0_S2048x1 : S2048x161.Slices ![0, 0] S2048x1
  slices_S2048x161_o0_1_S2048x16 : S2048x161.Slices ![0, 1] S2048x16
  slices_S2048x161_o0_17_S2048x16 : S2048x161.Slices ![0, 17] S2048x16
  slices_S2048x161_o0_33_S2048x128 : S2048x161.Slices ![0, 33] S2048x128
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  shapeCasts_S2048_S2048x1 : S2048.ShapeCasts S2048x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x161_S2048x161_1_0_0_1_n_n_wf : DotDims.WF S2048x512 S512x161 S2048x161 [1] [0] [0] [1] [] []
  dot_S2048x512_S512x16_S2048x16_1_0_0_1_n_n_wf : DotDims.WF S2048x512 S512x16 S2048x16 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x161.size a ≤ S512x161.size a
  hwx0_1 : ∀ i : grid0.Coords, EltTy.bits .bf16 = 32 ∨ (Rect.block (s := S512x161) S512x161.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .bf16 = 32 ∨ (Rect.block (s := S512x16) S512x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .bf16 = 32 ∨ (Rect.block (s := S32x1) S32x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S16384x1.size a
  hwx0_12 : ∀ i : grid0.Coords, EltTy.bits .f32 = 32 ∨ (Rect.block (s := S16384x1) S2048x1.size (cc0_transform_12 i) (hinb0_12 i)).WholeWords (EltTy.packing .f32)

variable [Facts₀]

def dot_S2048x512_S512x161_S2048x161_1_0_0_1_n_n : DotDims S2048x512 S512x161 S2048x161 where
  lhsContracting := [1]
  rhsContracting := [0]
  lhsNonContracting := [0]
  rhsNonContracting := [1]
  lhsBatch := []
  rhsBatch := []
  wf := dot_S2048x512_S512x161_S2048x161_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x161.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x16 : Shape := ⟨2, ![512, 16]⟩
abbrev S512 : Shape := ⟨1, ![512]⟩
abbrev S1 : Shape := ⟨1, ![1]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S512x1 : Shape := ⟨2, ![512, 1]⟩
abbrev S16384x1 : Shape := ⟨2, ![16384, 1]⟩
abbrev S1x1 : Shape := ⟨2, ![1, 1]⟩
abbrev S16384x16 : Shape := ⟨2, ![16384, 16]⟩
abbrev S_ : Shape := ⟨0, ![]⟩
abbrev S16 : Shape := ⟨1, ![16]⟩
abbrev S1x16 : Shape := ⟨2, ![1, 16]⟩
abbrev S16384x512x1 : Shape := ⟨3, ![16384, 512, 1]⟩
abbrev S1x512x16 : Shape := ⟨3, ![1, 512, 16]⟩
abbrev S16384x512x16 : Shape := ⟨3, ![16384, 512, 16]⟩
abbrev S16384 : Shape := ⟨1, ![16384]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩

abbrev nBuf : Space → Nat
  | .hbm => 82
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x16, .f32⟩
  | .hbm, ⟨2, _⟩ => ⟨S512x16, .f32⟩
  | .hbm, ⟨3, _⟩ => ⟨S512, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1, .f32⟩
  | .hbm, ⟨14, _⟩ => ⟨S512x1, .f32⟩
  | .hbm, ⟨15, _⟩ => ⟨S16384x1, .f32⟩
  | .hbm, ⟨16, _⟩ => ⟨S1x1, .f32⟩
  | .hbm, ⟨17, _⟩ => ⟨S16384x1, .f32⟩
  | .hbm, ⟨18, _⟩ => ⟨S16384x1, .f32⟩
  | .hbm, ⟨19, _⟩ => ⟨S16384x16, .f32⟩
  | .hbm, ⟨20, _⟩ => ⟨S_, .f32⟩
  | .hbm, ⟨21, _⟩ => ⟨S16, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x512x1, .f32⟩
  | .hbm, ⟨26, _⟩ => ⟨S1x512x16, .f32⟩
  | .hbm, ⟨27, _⟩ => ⟨S16384x512x16, .f32⟩
  | .hbm, ⟨28, _⟩ => ⟨S16384x512x16, .f32⟩
  | .hbm, ⟨29, _⟩ => ⟨S16384x512x16, .f32⟩
  | .hbm, ⟨30, _⟩ => ⟨S1x512x16, .f32⟩
  | .hbm, ⟨31, _⟩ => ⟨S16384x512x16, .f32⟩
  | .hbm, ⟨32, _⟩ => ⟨S16384x512x16, .f32⟩
  | .hbm, ⟨33, _⟩ => ⟨S16384x512x16, .f32⟩
  | .hbm, ⟨34, _⟩ => ⟨S_, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x128, .f32⟩
  | .hbm, ⟨45, _⟩ => ⟨S1x128, .f32⟩
  | .hbm, ⟨46, _⟩ => ⟨S16384x128, .f32⟩
  | .hbm, ⟨47, _⟩ => ⟨S16384x128, .f32⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S16384x64, .f32⟩
  | .hbm, ⟨57, _⟩ => ⟨S16384x64, .f32⟩
  | .hbm, ⟨58, _⟩ => ⟨S16384x32, .f32⟩
  | .hbm, ⟨59, _⟩ => ⟨S1x32, .f32⟩
  | .hbm, ⟨60, _⟩ => ⟨S16384x32, .f32⟩
  | .hbm, ⟨61, _⟩ => ⟨S16384x32, .f32⟩
  | .hbm, ⟨62, _⟩ => ⟨S_, .f32⟩
  | .hbm, ⟨63, _⟩ => ⟨S16384x32, .f32⟩
  | .hbm, ⟨64, _⟩ => ⟨S16384x32, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S1x1, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S512x16_S16_d0 : S512x16.ReducesTo [0] S16
  h_S_ : 0 < S_.numel
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S16384x512_S16384x512x1_0_1 : S16384x512.BroadcastsInDim S16384x512x1 (![0, 1] : Fin 2 → Fin S16384x512x1.rank)
  bcast_S512x16_S1x512x16_1_2 : S512x16.BroadcastsInDim S1x512x16 (![1, 2] : Fin 2 → Fin S1x512x16.rank)
  bcast_S16384x512x1_S16384x512x16_0_1_2 : S16384x512x1.BroadcastsInDim S16384x512x16 (![0, 1, 2] : Fin 3 → Fin S16384x512x16.rank)
  bcast_S1x512x16_S16384x512x16_0_1_2 : S1x512x16.BroadcastsInDim S16384x512x16 (![0, 1, 2] : Fin 3 → Fin S16384x512x16.rank)
  reducesTo_S16384x512x16_S16384x16_d1 : S16384x512x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  dot_S16384x512_S512x1_S16384x1_1_0_0_1_n_n_wf : DotDims.WF S16384x512 S512x1 S16384x1 [1] [0] [0] [1] [] []
  dot_S16384x512_S512x16_S16384x16_1_0_0_1_n_n_wf : DotDims.WF S16384x512 S512x16 S16384x16 [1] [0] [0] [1] [] []
  dot_S16384x512_S512x128_S16384x128_1_0_0_1_n_n_wf : DotDims.WF S16384x512 S512x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def dot_S16384x512_S512x16_S16384x16_1_0_0_1_n_n : DotDims S16384x512 S512x16 S16384x16 where
  lhsContracting := [1]
  rhsContracting := [0]
  lhsNonContracting := [0]
  rhsNonContracting := [1]
  lhsBatch := []
  rhsBatch := []
  wf := dot_S16384x512_S512x16_S16384x16_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KFrame.lean ====
/-
  The frame of the program's one pipelined region.  The host lines before the region (products, two column sums,
  three additions, a concatenation of four column groups, five changes of format, four reshapes) leave every
  argument array as launched; the region's body reads twelve input blocks through whole-buffer rectangles and
  stores one value, a function of those blocks alone, over the whole output block; so every weakly fair run ends,
  faults nowhere and leaves the fourteen argument arrays unchanged, and the output array ends at what the library
  computes from the per-point stored blocks.
-/
import proofs.«180015_j35588099014965_1_alg».proof.Proof.Gen.KernelIdeal.Launch
import proofs.«180015_j35588099014965_1_alg».proof.Proof.Gen.KernelIdeal.Skeleton
import proofs.«180015_j35588099014965_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch memory after the host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0 : Rect S2048x512 := Rect.unit (s := S2048x512) ![0, 0] S2048x512.size inb_S2048x512_S2048x512_0_0
abbrev r1 : Rect S512x161 := Rect.unit (s := S512x161) ![0, 0] S512x161.size inb_S512x161_S512x161_0_0
abbrev r2 : Rect S512x16 := Rect.unit (s := S512x16) ![0, 0] S512x16.size inb_S512x16_S512x16_0_0
abbrev r3 : Rect S1x16 := Rect.unit (s := S1x16) ![0, 0] S1x16.size inb_S1x16_S1x16_0_0
abbrev r4 : Rect S1x16 := Rect.unit (s := S1x16) ![0, 0] S1x16.size inb_S1x16_S1x16_0_0
abbrev r5 : Rect S128x64 := Rect.unit (s := S128x64) ![0, 0] S128x64.size inb_S128x64_S128x64_0_0
abbrev r6 : Rect S1x64 := Rect.unit (s := S1x64) ![0, 0] S1x64.size inb_S1x64_S1x64_0_0
abbrev r7 : Rect S64x32 := Rect.unit (s := S64x32) ![0, 0] S64x32.size inb_S64x32_S64x32_0_0
abbrev r8 : Rect S1x32 := Rect.unit (s := S1x32) ![0, 0] S1x32.size inb_S1x32_S1x32_0_0
abbrev r9 : Rect S32x1 := Rect.unit (s := S32x1) ![0, 0] S32x1.size inb_S32x1_S32x1_0_0
abbrev r10 : Rect S1x128 := Rect.unit (s := S1x128) ![0, 0] S1x128.size inb_S1x128_S1x128_0_0
abbrev r11 : Rect S1x1 := Rect.unit (s := S1x1) ![0, 0] S1x1.size inb_S1x1_S1x1_0_0
abbrev r12 : Rect S2048x1 := Rect.unit (s := S2048x1) ![0, 0] S2048x1.size inb_S2048x1_S2048x1_0_0

/-- What the body leaves in the output window's buffer: its one store, over the whole block, of the value computed
    from the twelve input blocks. -/
def out0_12 (x0 : Vec F S2048x512 .f32) (x1 : Vec F S512x161 .bf16) (x2 : Vec F S512x16 .bf16) (x3 : Vec F S1x16 .f32) (x4 : Vec F S1x16 .f32) (x5 : Vec F S128x64 .bf16) (x6 : Vec F S1x64 .f32) (x7 : Vec F S64x32 .bf16) (x8 : Vec F S1x32 .f32) (x9 : Vec F S32x1 .bf16) (x10 : Vec F S1x128 .f32) (x11 : Vec F S1x1 .f32) : Vec F S2048x1 .f32 :=
  View.canon [⟨r12, k0_pay1 (k0_pay3 (View.ld x0 r0) (View.ld x1 r1)) (k0_pay4 (View.ld x0 r0) (View.ld x1 r1) (View.ld x2 r2) (View.ld x3 r3) (View.ld x4 r4)) (k0_pay5 (View.ld x0 r0) (View.ld x1 r1) (View.ld x10 r10)) (View.ld x5 r5) (View.ld x6 r6) (View.ld x7 r7) (View.ld x8 r8) (View.ld x9 r9) (View.ld x11 r11)⟩]

theorem cover0_12 (p0 : Vec F S2048x1 .f32) (y : S2048x1.Idx) :
    ∃ pc ∈ ([⟨r12, p0⟩] : List (View.Piece (Elt F) S2048x1 .f32)), y ∈ pc.1.set :=
  View.cover_of_tiled [⟨r12, p0⟩] S2048x1.size (by rfl) y

set_option maxHeartbeats 4000000 in
/-- The body on whole staging buffers, the inputs' at contents `x0 … x11` and the output's at anything, runs to a state
    holding the inputs' as they were and the output's at `out0_12` of them. -/
theorem sound_kernel (c : Dev nD) (E : Set ℕ) (i : grid0.Coords) (arg1 : Memref sig .tc .vmem S2048x512 .f32) (harg1 : arg1.IsWhole) (arg2 : Memref sig .tc .vmem S512x161 .bf16) (harg2 : arg2.IsWhole) (arg3 : Memref sig .tc .vmem S512x16 .bf16) (harg3 : arg3.IsWhole) (arg4 : Memref sig .tc .vmem S1x16 .f32) (harg4 : arg4.IsWhole) (arg5 : Memref sig .tc .vmem S1x16 .f32) (harg5 : arg5.IsWhole) (arg6 : Memref sig .tc .vmem S128x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x128 .f32) (harg11 : arg11.IsWhole) (arg12 : Memref sig .tc .vmem S1x1 .f32) (harg12 : arg12.IsWhole) (arg13 : Memref sig .tc .vmem S2048x1 .f32) (harg13 : arg13.IsWhole)
    (x0 : Vec F S2048x512 .f32) (x1 : Vec F S512x161 .bf16) (x2 : Vec F S512x16 .bf16) (x3 : Vec F S1x16 .f32) (x4 : Vec F S1x16 .f32) (x5 : Vec F S128x64 .bf16) (x6 : Vec F S1x64 .f32) (x7 : Vec F S64x32 .bf16) (x8 : Vec F S1x32 .f32) (x9 : Vec F S32x1 .bf16) (x10 : Vec F S1x128 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0_12 _)

/-! ## The pipeline's proof data -/

/-- The arrays as the region finds them; after the body at point `t` each input's buffer at its block and the
    output's at `out0_12` of the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has the output array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the argument arrays are as launched: the first is staged by an input window and never written
    back, the others are staged by no window. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  have hA := A_eq m
  ⟨((h c).1 0).trans (((dats m 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩

/-- The frame: the run ends with the fourteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept m r h c) (run_main m ρ)

end Cert.KernelIdeal.Hand

end
-- ==== Proof.KFrameBits.lean ====
/-
  The frame of the program's one pipelined region.  The host lines before the region (products, two column sums,
  three additions, a concatenation of four column groups, five changes of format, four reshapes) leave every
  argument array as launched; the region's body reads twelve input blocks through whole-buffer rectangles and
  stores one value, a function of those blocks alone, over the whole output block; so every weakly fair run ends,
  faults nowhere and leaves the fourteen argument arrays unchanged, and the output array ends at what the library
  computes from the per-point stored blocks.
-/
import proofs.«180015_j35588099014965_1_alg».proof.Proof.Gen.Kernel.Launch
import proofs.«180015_j35588099014965_1_alg».proof.Proof.Gen.Kernel.Skeleton
import proofs.«180015_j35588099014965_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch memory after the host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0 : Rect S2048x512 := Rect.unit (s := S2048x512) ![0, 0] S2048x512.size inb_S2048x512_S2048x512_0_0
abbrev r1 : Rect S512x161 := Rect.unit (s := S512x161) ![0, 0] S512x161.size inb_S512x161_S512x161_0_0
abbrev r2 : Rect S512x16 := Rect.unit (s := S512x16) ![0, 0] S512x16.size inb_S512x16_S512x16_0_0
abbrev r3 : Rect S1x16 := Rect.unit (s := S1x16) ![0, 0] S1x16.size inb_S1x16_S1x16_0_0
abbrev r4 : Rect S1x16 := Rect.unit (s := S1x16) ![0, 0] S1x16.size inb_S1x16_S1x16_0_0
abbrev r5 : Rect S128x64 := Rect.unit (s := S128x64) ![0, 0] S128x64.size inb_S128x64_S128x64_0_0
abbrev r6 : Rect S1x64 := Rect.unit (s := S1x64) ![0, 0] S1x64.size inb_S1x64_S1x64_0_0
abbrev r7 : Rect S64x32 := Rect.unit (s := S64x32) ![0, 0] S64x32.size inb_S64x32_S64x32_0_0
abbrev r8 : Rect S1x32 := Rect.unit (s := S1x32) ![0, 0] S1x32.size inb_S1x32_S1x32_0_0
abbrev r9 : Rect S32x1 := Rect.unit (s := S32x1) ![0, 0] S32x1.size inb_S32x1_S32x1_0_0
abbrev r10 : Rect S1x128 := Rect.unit (s := S1x128) ![0, 0] S1x128.size inb_S1x128_S1x128_0_0
abbrev r11 : Rect S1x1 := Rect.unit (s := S1x1) ![0, 0] S1x1.size inb_S1x1_S1x1_0_0
abbrev r12 : Rect S2048x1 := Rect.unit (s := S2048x1) ![0, 0] S2048x1.size inb_S2048x1_S2048x1_0_0

/-- What the body leaves in the output window's buffer: its one store, over the whole block, of the value computed
    from the twelve input blocks. -/
def out0_12 (x0 : Vec F S2048x512 .f32) (x1 : Vec F S512x161 .bf16) (x2 : Vec F S512x16 .bf16) (x3 : Vec F S1x16 .f32) (x4 : Vec F S1x16 .f32) (x5 : Vec F S128x64 .bf16) (x6 : Vec F S1x64 .f32) (x7 : Vec F S64x32 .bf16) (x8 : Vec F S1x32 .f32) (x9 : Vec F S32x1 .bf16) (x10 : Vec F S1x128 .f32) (x11 : Vec F S1x1 .f32) : Vec F S2048x1 .f32 :=
  View.canon [⟨r12, k0_pay1 (k0_pay3 (View.ld x0 r0) (View.ld x1 r1)) (k0_pay4 (View.ld x0 r0) (View.ld x1 r1) (View.ld x2 r2) (View.ld x3 r3) (View.ld x4 r4)) (k0_pay5 (View.ld x0 r0) (View.ld x1 r1) (View.ld x10 r10)) (View.ld x5 r5) (View.ld x6 r6) (View.ld x7 r7) (View.ld x8 r8) (View.ld x9 r9) (View.ld x11 r11)⟩]

theorem cover0_12 (p0 : Vec F S2048x1 .f32) (y : S2048x1.Idx) :
    ∃ pc ∈ ([⟨r12, p0⟩] : List (View.Piece (Elt F) S2048x1 .f32)), y ∈ pc.1.set :=
  View.cover_of_tiled [⟨r12, p0⟩] S2048x1.size (by rfl) y

set_option maxHeartbeats 4000000 in
/-- The body on whole staging buffers, the inputs' at contents `x0 … x11` and the output's at anything, runs to a state
    holding the inputs' as they were and the output's at `out0_12` of them. -/
theorem sound_kernel (c : Dev nD) (E : Set ℕ) (i : grid0.Coords) (arg1 : Memref sig .tc .vmem S2048x512 .f32) (harg1 : arg1.IsWhole) (arg2 : Memref sig .tc .vmem S512x161 .bf16) (harg2 : arg2.IsWhole) (arg3 : Memref sig .tc .vmem S512x16 .bf16) (harg3 : arg3.IsWhole) (arg4 : Memref sig .tc .vmem S1x16 .f32) (harg4 : arg4.IsWhole) (arg5 : Memref sig .tc .vmem S1x16 .f32) (harg5 : arg5.IsWhole) (arg6 : Memref sig .tc .vmem S128x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x128 .f32) (harg11 : arg11.IsWhole) (arg12 : Memref sig .tc .vmem S1x1 .f32) (harg12 : arg12.IsWhole) (arg13 : Memref sig .tc .vmem S2048x1 .f32) (harg13 : arg13.IsWhole)
    (x0 : Vec F S2048x512 .f32) (x1 : Vec F S512x161 .bf16) (x2 : Vec F S512x16 .bf16) (x3 : Vec F S1x16 .f32) (x4 : Vec F S1x16 .f32) (x5 : Vec F S128x64 .bf16) (x6 : Vec F S1x64 .f32) (x7 : Vec F S64x32 .bf16) (x8 : Vec F S1x32 .f32) (x9 : Vec F S32x1 .bf16) (x10 : Vec F S1x128 .f32) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0_12 _)

/-! ## The pipeline's proof data -/

/-- The arrays as the region finds them; after the body at point `t` each input's buffer at its block and the
    output's at `out0_12` of the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has the output array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the argument arrays are as launched: the first is staged by an input window and never written
    back, the others are staged by no window. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  have hA := A_eq m
  ⟨((h c).1 0).trans (((dats m 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩

/-- The frame: the run ends with the fourteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept m r h c) (run_main m ρ)

end Cert.Kernel.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
/-
  The two sides' value at one batch row, as formulas over the extended reals, and the statement that they agree
  on real data.

  A row `xr` of the batch (512 features) meets: a linear weight `lw`; a per-feature embedding `fw f d` with bias
  `fb f d` (16 embedding coordinates); three dense layers with `max(·, 0)` between them and a final weight `wo`;
  three scalar offsets.  The second-order term is half the sum over the embedding coordinates of
  (Σ_f e_f)² − Σ_f e_f², with e_f = xr f · fw f d + fb f d.  One side computes Σ_f e_f² as written; the other
  expands the square: Σ_f (xr f)²·(fw f d)² + 2·Σ_f xr f·(fw f d·fb f d) + Σ_f (fb f d)², and subtracts the three
  pieces one after the other.
-/
import proofs.«180015_j35588099014965_1_alg».proof.Proof.LibReal
import Idealize.ShloMosaic.Lib.ValueIdx

open scoped BigOperators

noncomputable section

namespace Cert.Spec

open Cert.LibReal

/-- The three dense layers and the final weight, on one row: shared by both sides. -/
def h1 (xr : Fin 512 → EReal) (w1 : Fin 512 → Fin 128 → EReal) (b1 : Fin 128 → EReal) (j : Fin 128) : EReal :=
  max ((∑ f : Fin 512, xr f * w1 f j) + b1 j) 0
def h2 (xr : Fin 512 → EReal) (w1 : Fin 512 → Fin 128 → EReal) (b1 : Fin 128 → EReal)
    (w2 : Fin 128 → Fin 64 → EReal) (b2 : Fin 64 → EReal) (j : Fin 64) : EReal :=
  max ((∑ k : Fin 128, h1 xr w1 b1 k * w2 k j) + b2 j) 0
def h3 (xr : Fin 512 → EReal) (w1 : Fin 512 → Fin 128 → EReal) (b1 : Fin 128 → EReal)
    (w2 : Fin 128 → Fin 64 → EReal) (b2 : Fin 64 → EReal) (w3 : Fin 64 → Fin 32 → EReal) (b3 : Fin 32 → EReal) (j : Fin 32) : EReal :=
  max ((∑ k : Fin 64, h2 xr w1 b1 w2 b2 k * w3 k j) + b3 j) 0
def deep (xr : Fin 512 → EReal) (w1 : Fin 512 → Fin 128 → EReal) (b1 : Fin 128 → EReal)
    (w2 : Fin 128 → Fin 64 → EReal) (b2 : Fin 64 → EReal) (w3 : Fin 64 → Fin 32 → EReal) (b3 : Fin 32 → EReal)
    (wo : Fin 32 → EReal) : EReal :=
  ∑ k : Fin 32, h3 xr w1 b1 w2 b2 w3 b3 k * wo k

/-- The side that expands the square, on one row, over the tables it is handed: the linear weight, the embedding
    weight `fw`, the products `fwb` (weight · bias) and `fwsq` (weight squared), the bias column sums `sb` and the
    squared-bias column sums `sq`, the dense layers, and one combined offset `cb`. -/
def kerRow (half two : EReal) (xr : Fin 512 → EReal) (lw : Fin 512 → EReal) (fw fwb fwsq : Fin 512 → Fin 16 → EReal)
    (sb sq : Fin 16 → EReal) (w1 : Fin 512 → Fin 128 → EReal) (b1 : Fin 128 → EReal)
    (w2 : Fin 128 → Fin 64 → EReal) (b2 : Fin 64 → EReal) (w3 : Fin 64 → Fin 32 → EReal) (b3 : Fin 32 → EReal)
    (wo : Fin 32 → EReal) (cb : EReal) : EReal :=
  (((∑ f : Fin 512, xr f * lw f)
    + half * ∑ d : Fin 16,
        (((((∑ f : Fin 512, xr f * fw f d) + sb d) * ((∑ f : Fin 512, xr f * fw f d) + sb d)
            - ∑ f : Fin 512, (xr f * xr f) * fwsq f d)
          - two * ∑ f : Fin 512, xr f * fwb f d)
        - sq d))
    + deep xr w1 b1 w2 b2 w3 b3 wo)
  + cb

/-- The side that sums the squares as written, on one row, over the arguments themselves. -/
def refRow (half : EReal) (xr : Fin 512 → EReal) (lw : Fin 512 → EReal) (fw fb : Fin 512 → Fin 16 → EReal)
    (lb : EReal) (w1 : Fin 512 → Fin 128 → EReal) (b1 : Fin 128 → EReal)
    (w2 : Fin 128 → Fin 64 → EReal) (b2 : Fin 64 → EReal) (w3 : Fin 64 → Fin 32 → EReal) (b3 : Fin 32 → EReal)
    (wo : Fin 32 → EReal) (bo bias : EReal) : EReal :=
  ((((∑ f : Fin 512, xr f * lw f) + lb)
    + half * (0 + ∑ d : Fin 16,
        (((∑ f : Fin 512, xr f * fw f d) + (0 + ∑ f : Fin 512, fb f d))
            * ((∑ f : Fin 512, xr f * fw f d) + (0 + ∑ f : Fin 512, fb f d))
          - (0 + ∑ f : Fin 512, (xr f * fw f d + fb f d) * (xr f * fw f d + fb f d)))))
    + (deep xr w1 b1 w2 b2 w3 b3 wo + bo))
  + bias

/-! ## Real data: the dense layers stay real, and the algebra of one row -/

theorem h1_isReal (xr : Fin 512 → EReal) (w1 : Fin 512 → Fin 128 → EReal) (b1 : Fin 128 → EReal)
    (hx : ∀ f, IsReal (xr f)) (hw1 : ∀ f j, IsReal (w1 f j)) (hb1 : ∀ j, IsReal (b1 j)) (j : Fin 128) :
    IsReal (h1 xr w1 b1 j) :=
  IsReal.max (IsReal.add (IsReal.sum _ _ fun f _ => IsReal.mul (hx f) (hw1 f j)) (hb1 j)) IsReal.zero

theorem h2_isReal (xr : Fin 512 → EReal) (w1 : Fin 512 → Fin 128 → EReal) (b1 : Fin 128 → EReal)
    (w2 : Fin 128 → Fin 64 → EReal) (b2 : Fin 64 → EReal)
    (hx : ∀ f, IsReal (xr f)) (hw1 : ∀ f j, IsReal (w1 f j)) (hb1 : ∀ j, IsReal (b1 j))
    (hw2 : ∀ k j, IsReal (w2 k j)) (hb2 : ∀ j, IsReal (b2 j)) (j : Fin 64) :
    IsReal (h2 xr w1 b1 w2 b2 j) :=
  IsReal.max (IsReal.add (IsReal.sum _ _ fun k _ =>
    IsReal.mul (h1_isReal xr w1 b1 hx hw1 hb1 k) (hw2 k j)) (hb2 j)) IsReal.zero

theorem h3_isReal (xr : Fin 512 → EReal) (w1 : Fin 512 → Fin 128 → EReal) (b1 : Fin 128 → EReal)
    (w2 : Fin 128 → Fin 64 → EReal) (b2 : Fin 64 → EReal) (w3 : Fin 64 → Fin 32 → EReal) (b3 : Fin 32 → EReal)
    (hx : ∀ f, IsReal (xr f)) (hw1 : ∀ f j, IsReal (w1 f j)) (hb1 : ∀ j, IsReal (b1 j))
    (hw2 : ∀ k j, IsReal (w2 k j)) (hb2 : ∀ j, IsReal (b2 j))
    (hw3 : ∀ k j, IsReal (w3 k j)) (hb3 : ∀ j, IsReal (b3 j)) (j : Fin 32) :
    IsReal (h3 xr w1 b1 w2 b2 w3 b3 j) :=
  IsReal.max (IsReal.add (IsReal.sum _ _ fun k _ =>
    IsReal.mul (h2_isReal xr w1 b1 w2 b2 hx hw1 hb1 hw2 hb2 k) (hw3 k j)) (hb3 j)) IsReal.zero

theorem deep_isReal (xr : Fin 512 → EReal) (w1 : Fin 512 → Fin 128 → EReal) (b1 : Fin 128 → EReal)
    (w2 : Fin 128 → Fin 64 → EReal) (b2 : Fin 64 → EReal) (w3 : Fin 64 → Fin 32 → EReal) (b3 : Fin 32 → EReal)
    (wo : Fin 32 → EReal)
    (hx : ∀ f, IsReal (xr f)) (hw1 : ∀ f j, IsReal (w1 f j)) (hb1 : ∀ j, IsReal (b1 j))
    (hw2 : ∀ k j, IsReal (w2 k j)) (hb2 : ∀ j, IsReal (b2 j))
    (hw3 : ∀ k j, IsReal (w3 k j)) (hb3 : ∀ j, IsReal (b3 j)) (hwo : ∀ k, IsReal (wo k)) :
    IsReal (deep xr w1 b1 w2 b2 w3 b3 wo) :=
  IsReal.sum _ _ fun k _ =>
    IsReal.mul (h3_isReal xr w1 b1 w2 b2 w3 b3 hx hw1 hb1 hw2 hb2 hw3 hb3 k) (hwo k)

/-- Over the reals, the sum of the squares of `x·w + b` is the sum of the three parts of its expansion. -/
theorem real_sq_expand {n : ℕ} (x w b : Fin n → ℝ) :
    ∑ f, (x f * w f + b f) * (x f * w f + b f)
      = (∑ f, (x f * x f) * (w f * w f)) + 2 * (∑ f, x f * (w f * b f)) + ∑ f, b f * b f := by
  rw [Finset.mul_sum, ← Finset.sum_add_distrib, ← Finset.sum_add_distrib]
  exact Finset.sum_congr rfl fun f _ => by ring

/-- The algebra of one row with the dense-layer value held as one real number `D`: the square of the sum minus
    the three parts of the expansion, one after the other, is the square of the sum minus the sum of the squares;
    the offsets are re-associated. -/
theorem row_core {n m : ℕ} (half two D : EReal) (hhalf : IsReal half) (htwo : two = ((2 : ℝ) : EReal))
    (hD : IsReal D) (xr lw : Fin n → EReal) (fw fb : Fin n → Fin m → EReal) (lb bo bias : EReal)
    (hx : ∀ f, IsReal (xr f)) (hlw : ∀ f, IsReal (lw f)) (hfw : ∀ f d, IsReal (fw f d))
    (hfb : ∀ f d, IsReal (fb f d)) (hlb : IsReal lb) (hbo : IsReal bo) (hbias : IsReal bias) :
    (((∑ f : Fin n, xr f * lw f)
      + half * ∑ d : Fin m,
          (((((∑ f : Fin n, xr f * fw f d) + (0 + ∑ f : Fin n, fb f d))
                * ((∑ f : Fin n, xr f * fw f d) + (0 + ∑ f : Fin n, fb f d))
              - ∑ f : Fin n, (xr f * xr f) * (fw f d * fw f d))
            - two * ∑ f : Fin n, xr f * (fw f d * fb f d))
          - (0 + ∑ f : Fin n, fb f d * fb f d)))
      + D)
    + ((lb + bias) + bo)
    = ((((∑ f : Fin n, xr f * lw f) + lb)
      + half * (0 + ∑ d : Fin m,
          (((∑ f : Fin n, xr f * fw f d) + (0 + ∑ f : Fin n, fb f d))
              * ((∑ f : Fin n, xr f * fw f d) + (0 + ∑ f : Fin n, fb f d))
            - (0 + ∑ f : Fin n, (xr f * fw f d + fb f d) * (xr f * fw f d + fb f d)))))
      + (D + bo))
    + bias := by
  obtain ⟨h, rfl⟩ := hhalf
  obtain ⟨dr, rfl⟩ := hD
  obtain ⟨l, rfl⟩ := hlb
  obtain ⟨o, rfl⟩ := hbo
  obtain ⟨bs, rfl⟩ := hbias
  subst htwo
  choose x hx' using hx
  choose v hv using hlw
  choose w hw using hfw
  choose b hb using hfb
  have hX : xr = fun f => (x f : EReal) := funext hx'
  have hV : lw = fun f => (v f : EReal) := funext hv
  have hW : fw = fun f d => (w f d : EReal) := funext fun f => funext fun d => hw f d
  have hB : fb = fun f d => (b f d : EReal) := funext fun f => funext fun d => hb f d
  subst hX hV hW hB
  simp only [zero_add]
  simp only [← EReal.coe_sub, ← EReal.coe_mul, ← coe_sum, ← EReal.coe_add]
  congr 1
  have key : ∀ d, ∑ f, (x f * w f d + b f d) * (x f * w f d + b f d)
      = (∑ f, (x f * x f) * (w f d * w f d)) + 2 * (∑ f, x f * (w f d * b f d)) + ∑ f, b f d * b f d :=
    fun d => real_sq_expand x (fun f => w f d) (fun f => b f d)
  simp only [key, sub_add_eq_sub_sub]
  ring

/-- On real data the two rows are one number: the square of a sum expands over the reals, the three subtracted
    pieces are the three parts of the expansion, and the offsets are re-associated. -/
theorem row_eq (half two : EReal) (hhalf : IsReal half) (htwo : two = ((2 : ℝ) : EReal))
    (xr : Fin 512 → EReal) (lw : Fin 512 → EReal) (fw fb : Fin 512 → Fin 16 → EReal) (lb : EReal)
    (w1 : Fin 512 → Fin 128 → EReal) (b1 : Fin 128 → EReal)
    (w2 : Fin 128 → Fin 64 → EReal) (b2 : Fin 64 → EReal) (w3 : Fin 64 → Fin 32 → EReal) (b3 : Fin 32 → EReal)
    (wo : Fin 32 → EReal) (bo bias : EReal)
    (hx : ∀ f, IsReal (xr f)) (hlw : ∀ f, IsReal (lw f)) (hfw : ∀ f d, IsReal (fw f d)) (hfb : ∀ f d, IsReal (fb f d))
    (hlb : IsReal lb) (hw1 : ∀ f j, IsReal (w1 f j)) (hb1 : ∀ j, IsReal (b1 j)) (hw2 : ∀ k j, IsReal (w2 k j))
    (hb2 : ∀ j, IsReal (b2 j)) (hw3 : ∀ k j, IsReal (w3 k j)) (hb3 : ∀ j, IsReal (b3 j)) (hwo : ∀ k, IsReal (wo k))
    (hbo : IsReal bo) (hbias : IsReal bias) :
    kerRow half two xr lw fw (fun f d => fw f d * fb f d) (fun f d => fw f d * fw f d)
        (fun d => 0 + ∑ f : Fin 512, fb f d) (fun d => 0 + ∑ f : Fin 512, fb f d * fb f d)
        w1 b1 w2 b2 w3 b3 wo ((lb + bias) + bo)
      = refRow half xr lw fw fb lb w1 b1 w2 b2 w3 b3 wo bo bias := by
  unfold kerRow refRow
  exact row_core half two (deep xr w1 b1 w2 b2 w3 b3 wo) hhalf htwo
    (deep_isReal xr w1 b1 w2 b2 w3 b3 wo hx hw1 hb1 hw2 hb2 hw3 hb3 hwo)
    xr lw fw fb lb bo bias hx hlw hfw hfb hlb hbo hbias

/-! ## The whole result arrays -/

open Idealize.ShloMosaic Idealize.ShloMosaic.ValueIdx

/-- The expanding side's result array, [16384, 1], as one function of the fourteen argument arrays: row `i 0` of the
    batch through `kerRow` over the tables the host lines build from the arguments, then the logistic function. -/
def kerOut (half two : EReal) (a0 : (⟨2, ![16384, 512]⟩ : Shape).Idx → EReal) (a1 a2 : (⟨2, ![512, 16]⟩ : Shape).Idx → EReal) (a3 : (⟨1, ![512]⟩ : Shape).Idx → EReal) (a4 : (⟨1, ![1]⟩ : Shape).Idx → EReal)
    (a5 : (⟨2, ![512, 128]⟩ : Shape).Idx → EReal) (a6 : (⟨1, ![128]⟩ : Shape).Idx → EReal) (a7 : (⟨2, ![128, 64]⟩ : Shape).Idx → EReal) (a8 : (⟨1, ![64]⟩ : Shape).Idx → EReal)
    (a9 : (⟨2, ![64, 32]⟩ : Shape).Idx → EReal) (a10 : (⟨1, ![32]⟩ : Shape).Idx → EReal) (a11 : (⟨2, ![32, 1]⟩ : Shape).Idx → EReal) (a12 a13 : (⟨1, ![1]⟩ : Shape).Idx → EReal) :
    (⟨2, ![16384, 1]⟩ : Shape).Idx → EReal := fun i =>
  Ideal.logistic (kerRow half two (fun f => a0 (ix2 (⟨(i 0).val, idx2_lt0 i⟩ : Fin 16384) f)) (fun f => a3 (ix1 f)) (fun f d => a1 (ix2 f d))
    (fun f d => a1 (ix2 f d) * a2 (ix2 f d)) (fun f d => a1 (ix2 f d) * a1 (ix2 f d))
    (fun d => 0 + ∑ f : Fin 512, a2 (ix2 f d)) (fun d => 0 + ∑ f : Fin 512, a2 (ix2 f d) * a2 (ix2 f d))
    (fun f j => a5 (ix2 f j)) (fun j => a6 (ix1 j)) (fun k j => a7 (ix2 k j)) (fun j => a8 (ix1 j))
    (fun k j => a9 (ix2 k j)) (fun j => a10 (ix1 j)) (fun k => a11 (ix2 k (0 : Fin 1)))
    ((a4 (ix1 (0 : Fin 1)) + a13 (ix1 (0 : Fin 1))) + a12 (ix1 (0 : Fin 1))))

/-- The other side's result array as one function of the same arguments. -/
def refOut (half : EReal) (a0 : (⟨2, ![16384, 512]⟩ : Shape).Idx → EReal) (a1 a2 : (⟨2, ![512, 16]⟩ : Shape).Idx → EReal) (a3 : (⟨1, ![512]⟩ : Shape).Idx → EReal) (a4 : (⟨1, ![1]⟩ : Shape).Idx → EReal)
    (a5 : (⟨2, ![512, 128]⟩ : Shape).Idx → EReal) (a6 : (⟨1, ![128]⟩ : Shape).Idx → EReal) (a7 : (⟨2, ![128, 64]⟩ : Shape).Idx → EReal) (a8 : (⟨1, ![64]⟩ : Shape).Idx → EReal)
    (a9 : (⟨2, ![64, 32]⟩ : Shape).Idx → EReal) (a10 : (⟨1, ![32]⟩ : Shape).Idx → EReal) (a11 : (⟨2, ![32, 1]⟩ : Shape).Idx → EReal) (a12 a13 : (⟨1, ![1]⟩ : Shape).Idx → EReal) :
    (⟨2, ![16384, 1]⟩ : Shape).Idx → EReal := fun i =>
  Ideal.logistic (refRow half (fun f => a0 (ix2 (⟨(i 0).val, idx2_lt0 i⟩ : Fin 16384) f)) (fun f => a3 (ix1 f)) (fun f d => a1 (ix2 f d)) (fun f d => a2 (ix2 f d))
    (a4 (ix1 (0 : Fin 1))) (fun f j => a5 (ix2 f j)) (fun j => a6 (ix1 j)) (fun k j => a7 (ix2 k j)) (fun j => a8 (ix1 j))
    (fun k j => a9 (ix2 k j)) (fun j => a10 (ix1 j)) (fun k => a11 (ix2 k (0 : Fin 1)))
    (a12 (ix1 (0 : Fin 1))) (a13 (ix1 (0 : Fin 1))))

/-- Every entry of an array is a real number. -/
def AllReal {s : Shape} (a : s.Idx → EReal) : Prop := ∀ i, IsReal (a i)

/-- On real arguments the two result arrays are one function. -/
theorem out_eq (half two : EReal) (hhalf : IsReal half) (htwo : two = ((2 : ℝ) : EReal)) (a0 : (⟨2, ![16384, 512]⟩ : Shape).Idx → EReal) (a1 a2 : (⟨2, ![512, 16]⟩ : Shape).Idx → EReal) (a3 : (⟨1, ![512]⟩ : Shape).Idx → EReal) (a4 : (⟨1, ![1]⟩ : Shape).Idx → EReal)
    (a5 : (⟨2, ![512, 128]⟩ : Shape).Idx → EReal) (a6 : (⟨1, ![128]⟩ : Shape).Idx → EReal) (a7 : (⟨2, ![128, 64]⟩ : Shape).Idx → EReal) (a8 : (⟨1, ![64]⟩ : Shape).Idx → EReal)
    (a9 : (⟨2, ![64, 32]⟩ : Shape).Idx → EReal) (a10 : (⟨1, ![32]⟩ : Shape).Idx → EReal) (a11 : (⟨2, ![32, 1]⟩ : Shape).Idx → EReal) (a12 a13 : (⟨1, ![1]⟩ : Shape).Idx → EReal)
    (h0 : AllReal a0) (h1 : AllReal a1) (h2 : AllReal a2) (h3 : AllReal a3) (h4 : AllReal a4) (h5 : AllReal a5)
    (h6 : AllReal a6) (h7 : AllReal a7) (h8 : AllReal a8) (h9 : AllReal a9) (h10 : AllReal a10) (h11 : AllReal a11)
    (h12 : AllReal a12) (h13 : AllReal a13) :
    kerOut half two a0 a1 a2 a3 a4 a5 a6 a7 a8 a9 a10 a11 a12 a13 = refOut half a0 a1 a2 a3 a4 a5 a6 a7 a8 a9 a10 a11 a12 a13 := by
  funext i
  unfold kerOut refOut
  exact congrArg Ideal.logistic (row_eq half two hhalf htwo _ _ _ _ _ _ _ _ _ _ _ _ _ _
    (fun f => h0 _) (fun f => h3 _) (fun f d => h1 _) (fun f d => h2 _) (h4 _) (fun f j => h5 _) (fun j => h6 _)
    (fun k j => h7 _) (fun j => h8 _) (fun k j => h9 _) (fun j => h10 _) (fun k => h11 _) (h12 _) (h13 _))

end Cert.Spec

end
-- ==== Proof.KPayload.lean ====
/-
  The body's stored value at one row of a block, at the ideal values.

  The body's arithmetic is one pure term of the twelve loaded blocks.  Read at row `p` of the 2048-row block it is the
  logistic function of the row formula `Spec.kerRow`: the five matrix products are sums over the contracted
  coordinate (into a zero accumulator), the four column groups of the 161-column product are its slices at columns
  0, 1–16, 17–32 and 33–160, the row vectors are broadcast down the rows, the lane sum over the 16 embedding
  coordinates is a finite sum, and every change of float format is the identity.
-/
import proofs.«180015_j35588099014965_1_alg».proof.Proof.Gen.KernelIdeal.Skeleton
import proofs.«180015_j35588099014965_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-- The two scalar literals of the body, one half and two, as extended reals. -/
abbrev halfC : EReal := Ideal.ofBits .f32 0x3F000000#32
abbrev twoC : EReal := Ideal.ofBits .f32 0x40000000#32

/-! ### The product `dot_S2048x512_S512x161_S2048x161_1_0_0_1_n_n` read at an index -/

theorem lhs_mmA_0 (i : S2048x161.Idx) (q : dot_S2048x512_S512x161_S2048x161_1_0_0_1_n_n.contr.Idx) :
    (dot_S2048x512_S512x161_S2048x161_1_0_0_1_n_n.lhsIdx i q 0).val = (i 0).val := by
  unfold DotDims.lhsIdx
  rw [dif_neg (show ¬(0 : Fin S2048x512.rank) ∈ dot_S2048x512_S512x161_S2048x161_1_0_0_1_n_n.lhsBatch by decide), dif_pos (show (0 : Fin S2048x512.rank) ∈ dot_S2048x512_S512x161_S2048x161_1_0_0_1_n_n.lhsNonContracting by decide)]
  rfl
theorem lhs_mmA_1 (i : S2048x161.Idx) (q : dot_S2048x512_S512x161_S2048x161_1_0_0_1_n_n.contr.Idx) :
    (dot_S2048x512_S512x161_S2048x161_1_0_0_1_n_n.lhsIdx i q 1).val = (q ⟨0, by decide⟩).val :=
  dot_S2048x512_S512x161_S2048x161_1_0_0_1_n_n.lhsIdx_val_of_single rfl i q
theorem rhs_mmA_0 (i : S2048x161.Idx) (q : dot_S2048x512_S512x161_S2048x161_1_0_0_1_n_n.contr.Idx) :
    (dot_S2048x512_S512x161_S2048x161_1_0_0_1_n_n.rhsIdx i q 0).val = (q ⟨0, by decide⟩).val :=
  dot_S2048x512_S512x161_S2048x161_1_0_0_1_n_n.rhsIdx_val_of_single rfl i q
theorem rhs_mmA_1 (i : S2048x161.Idx) (q : dot_S2048x512_S512x161_S2048x161_1_0_0_1_n_n.contr.Idx) :
    (dot_S2048x512_S512x161_S2048x161_1_0_0_1_n_n.rhsIdx i q 1).val = (i 1).val := by
  unfold DotDims.rhsIdx
  rw [dif_neg (show ¬(1 : Fin S512x161.rank) ∈ dot_S2048x512_S512x161_S2048x161_1_0_0_1_n_n.rhsBatch by decide), dif_pos (show (1 : Fin S512x161.rank) ∈ dot_S2048x512_S512x161_S2048x161_1_0_0_1_n_n.rhsNonContracting by decide)]
  rfl
/-- Into a zero accumulator the product at `(p, q)` is the sum over the contracted coordinate. -/
theorem mmA_apply (l : FVec Ideal S2048x512 .bf16) (r : FVec Ideal S512x161 .bf16) (p : Fin 2048) (q : Fin 161) :
    matmul dot_S2048x512_S512x161_S2048x161_1_0_0_1_n_n none l r (constant (F := Ideal) S2048x161 .f32 0x00000000#32) (ix2 p q)
      = ∑ k : Fin 512, l (ix2 p k) * r (ix2 k q) := by
  simp only [matmul]
  rw [Ideal.matmul_constant_zero_apply, ← Equiv.sum_comp (contrEquiv1 dot_S2048x512_S512x161_S2048x161_1_0_0_1_n_n 512 rfl rfl).symm]
  refine Finset.sum_congr rfl fun k _ => ?_
  have hk := contrEquiv1_symm_val dot_S2048x512_S512x161_S2048x161_1_0_0_1_n_n 512 rfl rfl k
  have el : dot_S2048x512_S512x161_S2048x161_1_0_0_1_n_n.lhsIdx (ix2 p q) ((contrEquiv1 dot_S2048x512_S512x161_S2048x161_1_0_0_1_n_n 512 rfl rfl).symm k) = ix2 p k := funext fun a => Fin.ext (by
    match a with
    | ⟨0, _⟩ => exact lhs_mmA_0 _ _
    | ⟨1, _⟩ => exact (lhs_mmA_1 _ _).trans hk)
  have er : dot_S2048x512_S512x161_S2048x161_1_0_0_1_n_n.rhsIdx (ix2 p q) ((contrEquiv1 dot_S2048x512_S512x161_S2048x161_1_0_0_1_n_n 512 rfl rfl).symm k) = ix2 k q := funext fun a => Fin.ext (by
    match a with
    | ⟨0, _⟩ => exact (rhs_mmA_0 _ _).trans hk
    | ⟨1, _⟩ => exact rhs_mmA_1 _ _)
  rw [el, er]

/-! ### The product `dot_S2048x512_S512x16_S2048x16_1_0_0_1_n_n` read at an index -/

theorem lhs_mmB_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem lhs_mmB_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem rhs_mmB_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q
theorem rhs_mmB_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl
/-- Into a zero accumulator the product at `(p, q)` is the sum over the contracted coordinate. -/
theorem mmB_apply (l : FVec Ideal S2048x512 .bf16) (r : FVec Ideal S512x16 .bf16) (p : Fin 2048) (q : Fin 16) :
    matmul dot_S2048x512_S512x16_S2048x16_1_0_0_1_n_n none l r (constant (F := Ideal) S2048x16 .f32 0x00000000#32) (ix2 p q)
      = ∑ k : Fin 512, l (ix2 p k) * r (ix2 k q) := by
  simp only [matmul]
  rw [Ideal.matmul_constant_zero_apply, ← Equiv.sum_comp (contrEquiv1 dot_S2048x512_S512x16_S2048x16_1_0_0_1_n_n 512 rfl rfl).symm]
  refine Finset.sum_congr rfl fun k _ => ?_
  have hk := contrEquiv1_symm_val dot_S2048x512_S512x16_S2048x16_1_0_0_1_n_n 512 rfl rfl k
  have el : dot_S2048x512_S512x16_S2048x16_1_0_0_1_n_n.lhsIdx (ix2 p q) ((contrEquiv1 dot_S2048x512_S512x16_S2048x16_1_0_0_1_n_n 512 rfl rfl).symm k) = ix2 p k := funext fun a => Fin.ext (by
    match a with
    | ⟨0, _⟩ => exact lhs_mmB_0 _ _
    | ⟨1, _⟩ => exact (lhs_mmB_1 _ _).trans hk)
  have er : dot_S2048x512_S512x16_S2048x16_1_0_0_1_n_n.rhsIdx (ix2 p q) ((contrEquiv1 dot_S2048x512_S512x16_S2048x16_1_0_0_1_n_n 512 rfl rfl).symm k) = ix2 k q := funext fun a => Fin.ext (by
    match a with
    | ⟨0, _⟩ => exact (rhs_mmB_0 _ _).trans hk
    | ⟨1, _⟩ => exact rhs_mmB_1 _ _)
  rw [el, er]

/-! ### The product `dot_S2048x128_S128x64_S2048x64_1_0_0_1_n_n` read at an index -/

theorem lhs_mmC_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_mmC_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_mmC_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_mmC_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl
/-- Into a zero accumulator the product at `(p, q)` is the sum over the contracted coordinate. -/
theorem mmC_apply (l : FVec Ideal S2048x128 .bf16) (r : FVec Ideal S128x64 .bf16) (p : Fin 2048) (q : Fin 64) :
    matmul dot_S2048x128_S128x64_S2048x64_1_0_0_1_n_n none l r (constant (F := Ideal) S2048x64 .f32 0x00000000#32) (ix2 p q)
      = ∑ k : Fin 128, l (ix2 p k) * r (ix2 k q) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p q) ((contrEquiv1 dot_S2048x128_S128x64_S2048x64_1_0_0_1_n_n 128 rfl rfl).symm k) = ix2 p k := funext fun a => Fin.ext (by
    match a with
    | ⟨0, _⟩ => exact lhs_mmC_0 _ _
    | ⟨1, _⟩ => exact (lhs_mmC_1 _ _).trans hk)
  have er : dot_S2048x128_S128x64_S2048x64_1_0_0_1_n_n.rhsIdx (ix2 p q) ((contrEquiv1 dot_S2048x128_S128x64_S2048x64_1_0_0_1_n_n 128 rfl rfl).symm k) = ix2 k q := funext fun a => Fin.ext (by
    match a with
    | ⟨0, _⟩ => exact (rhs_mmC_0 _ _).trans hk
    | ⟨1, _⟩ => exact rhs_mmC_1 _ _)
  rw [el, er]

/-! ### The product `dot_S2048x64_S64x32_S2048x32_1_0_0_1_n_n` read at an index -/

theorem lhs_mmD_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhs_mmD_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs_mmD_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs_mmD_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl
/-- Into a zero accumulator the product at `(p, q)` is the sum over the contracted coordinate. -/
theorem mmD_apply (l : FVec Ideal S2048x64 .bf16) (r : FVec Ideal S64x32 .bf16) (p : Fin 2048) (q : Fin 32) :
    matmul dot_S2048x64_S64x32_S2048x32_1_0_0_1_n_n none l r (constant (F := Ideal) S2048x32 .f32 0x00000000#32) (ix2 p q)
      = ∑ k : Fin 64, l (ix2 p k) * r (ix2 k q) := by
  simp only [matmul]
  rw [Ideal.matmul_constant_zero_apply, ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p q) ((contrEquiv1 dot_S2048x64_S64x32_S2048x32_1_0_0_1_n_n 64 rfl rfl).symm k) = ix2 p k := funext fun a => Fin.ext (by
    match a with
    | ⟨0, _⟩ => exact lhs_mmD_0 _ _
    | ⟨1, _⟩ => exact (lhs_mmD_1 _ _).trans hk)
  have er : dot_S2048x64_S64x32_S2048x32_1_0_0_1_n_n.rhsIdx (ix2 p q) ((contrEquiv1 dot_S2048x64_S64x32_S2048x32_1_0_0_1_n_n 64 rfl rfl).symm k) = ix2 k q := funext fun a => Fin.ext (by
    match a with
    | ⟨0, _⟩ => exact (rhs_mmD_0 _ _).trans hk
    | ⟨1, _⟩ => exact rhs_mmD_1 _ _)
  rw [el, er]

/-! ### The product `dot_S2048x32_S32x1_S2048x1_1_0_0_1_n_n` read at an index -/

theorem lhs_mmE_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhs_mmE_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhs_mmE_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhs_mmE_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl
/-- Into a zero accumulator the product at `(p, q)` is the sum over the contracted coordinate. -/
theorem mmE_apply (l : FVec Ideal S2048x32 .bf16) (r : FVec Ideal S32x1 .bf16) (p : Fin 2048) (q : Fin 1) :
    matmul dot_S2048x32_S32x1_S2048x1_1_0_0_1_n_n none l r (constant (F := Ideal) S2048x1 .f32 0x00000000#32) (ix2 p q)
      = ∑ k : Fin 32, l (ix2 p k) * r (ix2 k q) := by
  simp only [matmul]
  rw [Ideal.matmul_constant_zero_apply, ← Equiv.sum_comp (contrEquiv1 dot_S2048x32_S32x1_S2048x1_1_0_0_1_n_n 32 rfl rfl).symm]
  refine Finset.sum_congr rfl fun k _ => ?_
  have hk := contrEquiv1_symm_val dot_S2048x32_S32x1_S2048x1_1_0_0_1_n_n 32 rfl rfl k
  have el : dot_S2048x32_S32x1_S2048x1_1_0_0_1_n_n.lhsIdx (ix2 p q) ((contrEquiv1 dot_S2048x32_S32x1_S2048x1_1_0_0_1_n_n 32 rfl rfl).symm k) = ix2 p k := funext fun a => Fin.ext (by
    match a with
    | ⟨0, _⟩ => exact lhs_mmE_0 _ _
    | ⟨1, _⟩ => exact (lhs_mmE_1 _ _).trans hk)
  have er : dot_S2048x32_S32x1_S2048x1_1_0_0_1_n_n.rhsIdx (ix2 p q) ((contrEquiv1 dot_S2048x32_S32x1_S2048x1_1_0_0_1_n_n 32 rfl rfl).symm k) = ix2 k q := funext fun a => Fin.ext (by
    match a with
    | ⟨0, _⟩ => exact (rhs_mmE_0 _ _).trans hk
    | ⟨1, _⟩ => exact rhs_mmE_1 _ _)
  rw [el, er]

/-! ### The lane sum and the column cast -/

/-- The reduced row index `p` with lane `k` put back is `(p, k)`. -/
theorem lift_row (h : S2048x16.Reduces [1] S2048) (p : Fin 2048) (k : Fin (S2048x16.size 1)) :
    h.lift (ix1 p) k = ix2 p (⟨k.val, k.isLt⟩ : Fin 16) := by
  funext c; apply Fin.ext
  fin_cases c <;> rfl

/-- The sum over the 16 lanes, into a zero accumulator, at row `p`. -/
theorem laneSum_apply (v : FVec Ideal S2048x16 .f32) (h : S2048x16.Reduces [1] S2048) (hφ : FKind.Formats .f32)
    (hacc : (0x00000000#32 : BitVec 32) = 0x00000000#32) (p : Fin 2048) :
    multiReduction (F := Ideal) .add [1] S2048 v 0x00000000#32 h hφ hacc (ix1 p) = ∑ d : Fin 16, v (ix2 p d) := by
  refine (Ideal.multiReduction_add_single v 0x00000000#32 h hφ hacc (ix1 p)).trans ?_
  exact Finset.sum_congr rfl fun k _ => congrArg v (lift_row h p k)

/-- A vector of 2048 entries cast to one column, read at `(p, 0)`, is entry `p`. -/
theorem colCast_apply {α : Type} (v : S2048.Idx → α) (h : S2048.ShapeCasts S2048x1) (p : Fin 2048) :
    shapeCast S2048x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-! ### The payloads read at an index -/

/-- The 161-column product at `(p, q)`. -/
theorem pay2_at (v0 : Vec Ideal S2048x512 .f32) (v4 : Vec Ideal S512x161 .bf16) (p : Fin 2048) (q : Fin 161) :
    k0_pay2 (F := Ideal) v0 v4 (ix2 p q) = ∑ f : Fin 512, v0 (ix2 p f) * v4 (ix2 f q) := by
  unfold k0_pay2
  simp only [shapeCast_self]
  refine (mmA_apply _ _ p q).trans ?_
  exact Finset.sum_congr rfl fun k _ => rfl

/-- The first column group (column 0): the linear term. -/
theorem pay3_at (v0 : Vec Ideal S2048x512 .f32) (v4 : Vec Ideal S512x161 .bf16) (p : Fin 2048) :
    k0_pay3 (F := Ideal) v0 v4 (ix2 p (0 : Fin 1)) = ∑ f : Fin 512, v0 (ix2 p f) * v4 (ix2 f (⟨0, by decide⟩ : Fin 161)) := by
  unfold k0_pay3
  refine (slice2_axis1_apply 0 (k0_pay2 (F := Ideal) v0 v4) slices_S2048x161_o0_0_S2048x1 p (0 : Fin 1) (⟨0, by decide⟩ : Fin 161) rfl).trans ?_
  exact pay2_at v0 v4 p _

/-- The fourth column group (columns 33–160) plus its bias, clamped below at zero: the first dense layer. -/
theorem pay5_at (v0 : Vec Ideal S2048x512 .f32) (v4 : Vec Ideal S512x161 .bf16) (v31 : Vec Ideal S1x128 .f32) (p : Fin 2048) (j : Fin 128) :
    k0_pay5 (F := Ideal) v0 v4 v31 (ix2 p j)
      = max ((∑ f : Fin 512, v0 (ix2 p f) * v4 (ix2 f (⟨33 + j.val, by omega⟩ : Fin 161))) + v31 (ix2 (0 : Fin 1) j)) 0 := by
  unfold k0_pay5
  simp only [shapeCast_self, truncf_apply, maximumf_apply, addf_apply, broadcast_apply]
  rw [slice2_axis1_apply 33 (k0_pay2 (F := Ideal) v0 v4) slices_S2048x161_o0_33_S2048x128 p j (⟨33 + j.val, by omega⟩ : Fin 161) rfl,
    broadcastTo_1b_ab_apply v31 broadcasts_S1x128_S2048x128 p j, pay2_at]
  show max _ (Ideal.ofBits .f32 0x00000000#32) = _
  rw [Ideal.ofBits_zero_f32]

/-- The second-order term: half the lane sum, over the 16 embedding coordinates, of the expanded square. -/
theorem pay4_at (v0 : Vec Ideal S2048x512 .f32) (v4 : Vec Ideal S512x161 .bf16) (v7 : Vec Ideal S512x16 .bf16)
    (v14 v16 : Vec Ideal S1x16 .f32) (p : Fin 2048) :
    k0_pay4 (F := Ideal) v0 v4 v7 v14 v16 (ix2 p (0 : Fin 1))
      = halfC * ∑ d : Fin 16,
          (((((∑ f : Fin 512, v0 (ix2 p f) * v4 (ix2 f (⟨1 + d.val, by omega⟩ : Fin 161))) + v14 (ix2 (0 : Fin 1) d))
                * ((∑ f : Fin 512, v0 (ix2 p f) * v4 (ix2 f (⟨1 + d.val, by omega⟩ : Fin 161))) + v14 (ix2 (0 : Fin 1) d))
              - ∑ f : Fin 512, (v0 (ix2 p f) * v0 (ix2 p f)) * v7 (ix2 f d))
            - twoC * ∑ f : Fin 512, v0 (ix2 p f) * v4 (ix2 f (⟨17 + d.val, by omega⟩ : Fin 161)))
          - v16 (ix2 (0 : Fin 1) d)) := by
  unfold k0_pay4
  simp only [shapeCast_self, mulf_apply, broadcast_apply]
  rw [colCast_apply, laneSum_apply]
  refine congrArg (fun s => halfC * s) (Finset.sum_congr rfl fun d _ => ?_)
  simp only [subf_apply, mulf_apply, addf_apply, broadcast_apply]
  rw [slice2_axis1_apply 1 (k0_pay2 (F := Ideal) v0 v4) slices_S2048x161_o0_1_S2048x16 p d (⟨1 + d.val, by omega⟩ : Fin 161) rfl,
    slice2_axis1_apply 17 (k0_pay2 (F := Ideal) v0 v4) slices_S2048x161_o0_17_S2048x16 p d (⟨17 + d.val, by omega⟩ : Fin 161) rfl,
    broadcastTo_1b_ab_apply v14 broadcasts_S1x16_S2048x16 p d, broadcastTo_1b_ab_apply v16 broadcasts_S1x16_S2048x16 p d,
    mmB_apply, pay2_at, pay2_at]
  rfl

/-- The three remaining dense layers on top of the first, the sum of the three terms and the offset, through the logistic function. -/
theorem pay1_at (v10 v30 : FVec Ideal S2048x1 .f32) (v37 : FVec Ideal S2048x128 .bf16) (v38 : Vec Ideal S128x64 .bf16)
    (v40 : Vec Ideal S1x64 .f32) (v48 : Vec Ideal S64x32 .bf16) (v50 : Vec Ideal S1x32 .f32) (v58 : Vec Ideal S32x1 .bf16)
    (v61 : Vec Ideal S1x1 .f32) (p : Fin 2048) :
    k0_pay1 (F := Ideal) v10 v30 v37 v38 v40 v48 v50 v58 v61 (ix2 p (0 : Fin 1))
      = Ideal.logistic ((((v10 (ix2 p (0 : Fin 1)) + v30 (ix2 p (0 : Fin 1)))
          + ∑ k : Fin 32,
              (max ((∑ k2 : Fin 64,
                  (max ((∑ k1 : Fin 128, v37 (ix2 p k1) * v38 (ix2 k1 k2)) + v40 (ix2 (0 : Fin 1) k2)) 0) * v48 (ix2 k2 k))
                + v50 (ix2 (0 : Fin 1) k)) 0) * v58 (ix2 k (0 : Fin 1)))
          + v61 (ix2 (0 : Fin 1) (0 : Fin 1)))) := by
  have hz : FloatOps.ofBits (F := Ideal) .f32 0x00000000#32 = (0 : EReal) := Ideal.ofBits_zero_f32
  unfold k0_pay1
  simp only [shapeCast_self, logistic, Ideal.logistic_def, addf_apply, maximumf_apply, truncf_apply, broadcast_apply,
    mmE_apply, mmD_apply, mmC_apply, broadcastTo_1b_ab_apply, hz]

/-- The stored value at row `p` (its one column) is the logistic function of the row formula over the loaded blocks. -/
theorem pay_at (v0 : Vec Ideal S2048x512 .f32) (v4 : Vec Ideal S512x161 .bf16) (v7 : Vec Ideal S512x16 .bf16)
    (v14 v16 : Vec Ideal S1x16 .f32) (v31 : Vec Ideal S1x128 .f32) (v38 : Vec Ideal S128x64 .bf16) (v40 : Vec Ideal S1x64 .f32)
    (v48 : Vec Ideal S64x32 .bf16) (v50 : Vec Ideal S1x32 .f32) (v58 : Vec Ideal S32x1 .bf16) (v61 : Vec Ideal S1x1 .f32)
    (p : Fin 2048) :
    k0_pay1 (F := Ideal) (k0_pay3 v0 v4) (k0_pay4 v0 v4 v7 v14 v16) (k0_pay5 v0 v4 v31) v38 v40 v48 v50 v58 v61 (ix2 p (0 : Fin 1))
      = Ideal.logistic (Cert.Spec.kerRow halfC twoC (fun f : Fin 512 => v0 (ix2 p f))
          (fun f : Fin 512 => v4 (ix2 f (⟨0, by decide⟩ : Fin 161)))
          (fun (f : Fin 512) (d : Fin 16) => v4 (ix2 f (⟨1 + d.val, by omega⟩ : Fin 161)))
          (fun (f : Fin 512) (d : Fin 16) => v4 (ix2 f (⟨17 + d.val, by omega⟩ : Fin 161)))
          (fun (f : Fin 512) (d : Fin 16) => v7 (ix2 f d))
          (fun d : Fin 16 => v14 (ix2 (0 : Fin 1) d)) (fun d : Fin 16 => v16 (ix2 (0 : Fin 1) d))
          (fun (f : Fin 512) (j : Fin 128) => v4 (ix2 f (⟨33 + j.val, by omega⟩ : Fin 161)))
          (fun j : Fin 128 => v31 (ix2 (0 : Fin 1) j))
          (fun (k : Fin 128) (j : Fin 64) => v38 (ix2 k j)) (fun j : Fin 64 => v40 (ix2 (0 : Fin 1) j))
          (fun (k : Fin 64) (j : Fin 32) => v48 (ix2 k j)) (fun j : Fin 32 => v50 (ix2 (0 : Fin 1) j))
          (fun k : Fin 32 => v58 (ix2 k (0 : Fin 1))) (v61 (ix2 (0 : Fin 1) (0 : Fin 1)))) := by
  rw [pay1_at, pay3_at, pay4_at]
  simp only [pay5_at]
  unfold Cert.Spec.kerRow Cert.Spec.deep Cert.Spec.h3 Cert.Spec.h2 Cert.Spec.h1
  rfl

end Cert.KernelIdeal.Pay

end
-- ==== Proof.KHost.lean ====
/-
  What the host lines before the region leave in the arrays the region's windows stage, at the ideal values,
  entry by entry, in terms of the argument arrays as launched.

  The 161-column table is the concatenation, along the columns, of the linear weight as one column, the embedding
  weight (16 columns), the product of embedding weight and bias (16 columns) and the first dense weight (128
  columns); a change of float format is the identity; a column sum is its initial value, zero, plus the sum down the
  512 rows; a reshape of a vector to one row keeps its entries; the combined offset is the sum of three scalars.
-/
import proofs.«180015_j35588099014965_1_alg».proof.Proof.KFrame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

open scoped BigOperators

noncomputable section

namespace Cert.KernelIdeal.HostVals

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ)

/-- The argument arrays as launched, as functions of their indices. -/
abbrev A0 (c : Dev nD) : S16384x512.Idx → EReal := m ((c : Thread nD τ).loc main_arg0)
abbrev A1 (c : Dev nD) : S512x16.Idx → EReal := m ((c : Thread nD τ).loc main_arg1)
abbrev A2 (c : Dev nD) : S512x16.Idx → EReal := m ((c : Thread nD τ).loc main_arg2)
abbrev A3 (c : Dev nD) : S512.Idx → EReal := m ((c : Thread nD τ).loc main_arg3)
abbrev A4 (c : Dev nD) : S1.Idx → EReal := m ((c : Thread nD τ).loc main_arg4)
abbrev A5 (c : Dev nD) : S512x128.Idx → EReal := m ((c : Thread nD τ).loc main_arg5)
abbrev A6 (c : Dev nD) : S128.Idx → EReal := m ((c : Thread nD τ).loc main_arg6)
abbrev A7 (c : Dev nD) : S128x64.Idx → EReal := m ((c : Thread nD τ).loc main_arg7)
abbrev A8 (c : Dev nD) : S64.Idx → EReal := m ((c : Thread nD τ).loc main_arg8)
abbrev A9 (c : Dev nD) : S64x32.Idx → EReal := m ((c : Thread nD τ).loc main_arg9)
abbrev A10 (c : Dev nD) : S32.Idx → EReal := m ((c : Thread nD τ).loc main_arg10)
abbrev A11 (c : Dev nD) : S32x1.Idx → EReal := m ((c : Thread nD τ).loc main_arg11)
abbrev A12 (c : Dev nD) : S1.Idx → EReal := m ((c : Thread nD τ).loc main_arg12)
abbrev A13 (c : Dev nD) : S1.Idx → EReal := m ((c : Thread nD τ).loc main_arg13)

/-- A vector reshaped to one row keeps its entries. -/
theorem shapeCast_row {n : Nat} {α : Type} (x : (⟨1, ![n]⟩ : Shape).Idx → α) (h : (⟨1, ![n]⟩ : Shape).ShapeCasts ⟨2, ![1, n]⟩) (j : Fin n) :
    shapeCast (⟨2, ![1, n]⟩ : Shape) x h (ix2 (0 : Fin 1) j) = x (ix1 j) :=
  shapeCast_apply x h _ _ (by rw [Shape.rowMajor_val_one, Shape.rowMajor_val_two]; show j.val = (0 : Fin 1).val * n + j.val; simp)

/-- The column sum of a 512-by-16 table, spread to one row, read at a column: zero plus the sum down the rows. -/
theorem colsum_row (x : S512x16.Idx → EReal) (d : Fin 16) :
    broadcastInDim S1x16 ![1] bcast_S16_S1x16_1
        (Host.reduceAdd (F := Ideal) (φ := .f32) x (constant (F := Ideal) S_ .f32 0x00000000#32) reducesTo_S512x16_S16_d0 h_S_)
        (ix2 (0 : Fin 1) d)
      = 0 + ∑ f : Fin 512, x (ix2 f d) := by
  rw [broadcastInDim_apply _ bcast_S16_S1x16_1 _ _ (ix1 d) (fun a => match a with
    | ⟨0, _⟩ => by show d.val = if (16 : Nat) = 1 then 0 else d.val; rw [if_neg (by decide)])]
  simp only [Host.reduceAdd, Ideal.hostReduceAdd_def]
  rw [Ideal.hostReduceAdd_single reducesTo_S512x16_S16_d0 (by decide)]
  refine congrArg₂ (· + ·) ?_ (Finset.sum_congr rfl fun k _ => ?_)
  · rw [constant_apply, Ideal.ofBits_zero_f32]
  · exact congrArg x (funext fun a => Fin.ext (by match a with | ⟨0, _⟩ => rfl | ⟨1, _⟩ => rfl))

/-- The 161-column table as the host lines build it: four column groups joined along the columns, then a change
    of float format. -/
theorem e_v12 (c : Dev nD) :
    (V m c main_v12 : S512x161.Idx → EReal)
      = truncf (F := Ideal) (s := S512x161) (φ := .f32) .bf16
          (concatenate S512x161 1
            [⟨S512x1, broadcastInDim S512x1 ![0] bcast_S512_S512x1_0 (A3 m c)⟩, ⟨S512x16, A1 m c⟩,
             ⟨S512x16, mulf (F := Ideal) (s := S512x16) (φ := .f32) (A1 m c) (A2 m c)⟩, ⟨S512x128, A5 m c⟩]
            concatenates_S512x1_S512x16_S512x16_S512x128_S512x161_d1) bitsLt_bf16_f32 := by
  dsimp only [V, hostOps0]; after_results; rfl

section Table
variable (x0 : S512x1.Idx → EReal) (x1 x2 : S512x16.Idx → EReal) (x3 : S512x128.Idx → EReal)

/-- Column 0 of the joined table is the first group's one column. -/
theorem table_c0 (f : Fin 512) :
    concatenate S512x161 1 [⟨S512x1, x0⟩, ⟨S512x16, x1⟩, ⟨S512x16, x2⟩, ⟨S512x128, x3⟩]
        concatenates_S512x1_S512x16_S512x16_S512x128_S512x161_d1 (ix2 f (⟨0, by decide⟩ : Fin 161))
      = x0 (ix2 f (0 : Fin 1)) :=
  concatenate_apply_piece (1 : Fin S512x161.rank) [⟨S512x1, x0⟩, ⟨S512x16, x1⟩, ⟨S512x16, x2⟩, ⟨S512x128, x3⟩]
    concatenates_S512x1_S512x16_S512x16_S512x128_S512x161_d1 _
    0 (by simp) S512x1 x0 rfl rfl 0 rfl (ix2 f (0 : Fin 1))
    (fun b hb => by match b with | ⟨0, _⟩ => rfl | ⟨1, _⟩ => exact absurd rfl hb) rfl
/-- Columns 1 to 16 are the second group. -/
theorem table_c1 (f : Fin 512) (d : Fin 16) :
    concatenate S512x161 1 [⟨S512x1, x0⟩, ⟨S512x16, x1⟩, ⟨S512x16, x2⟩, ⟨S512x128, x3⟩]
        concatenates_S512x1_S512x16_S512x16_S512x128_S512x161_d1 (ix2 f (⟨1 + d.val, by omega⟩ : Fin 161))
      = x1 (ix2 f d) :=
  concatenate_apply_piece (1 : Fin S512x161.rank) [⟨S512x1, x0⟩, ⟨S512x16, x1⟩, ⟨S512x16, x2⟩, ⟨S512x128, x3⟩]
    concatenates_S512x1_S512x16_S512x16_S512x128_S512x161_d1 _
    1 (by simp) S512x16 x1 rfl rfl 1 rfl (ix2 f d)
    (fun b hb => by match b with | ⟨0, _⟩ => rfl | ⟨1, _⟩ => exact absurd rfl hb) rfl
/-- Columns 17 to 32 are the third group. -/
theorem table_c2 (f : Fin 512) (d : Fin 16) :
    concatenate S512x161 1 [⟨S512x1, x0⟩, ⟨S512x16, x1⟩, ⟨S512x16, x2⟩, ⟨S512x128, x3⟩]
        concatenates_S512x1_S512x16_S512x16_S512x128_S512x161_d1 (ix2 f (⟨17 + d.val, by omega⟩ : Fin 161))
      = x2 (ix2 f d) :=
  concatenate_apply_piece (1 : Fin S512x161.rank) [⟨S512x1, x0⟩, ⟨S512x16, x1⟩, ⟨S512x16, x2⟩, ⟨S512x128, x3⟩]
    concatenates_S512x1_S512x16_S512x16_S512x128_S512x161_d1 _
    2 (by simp) S512x16 x2 rfl rfl 17 rfl (ix2 f d)
    (fun b hb => by match b with | ⟨0, _⟩ => rfl | ⟨1, _⟩ => exact absurd rfl hb) rfl
/-- Columns 33 to 160 are the fourth group. -/
theorem table_c3 (f : Fin 512) (j : Fin 128) :
    concatenate S512x161 1 [⟨S512x1, x0⟩, ⟨S512x16, x1⟩, ⟨S512x16, x2⟩, ⟨S512x128, x3⟩]
        concatenates_S512x1_S512x16_S512x16_S512x128_S512x161_d1 (ix2 f (⟨33 + j.val, by omega⟩ : Fin 161))
      = x3 (ix2 f j) :=
  concatenate_apply_piece (1 : Fin S512x161.rank) [⟨S512x1, x0⟩, ⟨S512x16, x1⟩, ⟨S512x16, x2⟩, ⟨S512x128, x3⟩]
    concatenates_S512x1_S512x16_S512x16_S512x128_S512x161_d1 _
    3 (by simp) S512x128 x3 rfl rfl 33 rfl (ix2 f j)
    (fun b hb => by match b with | ⟨0, _⟩ => rfl | ⟨1, _⟩ => exact absurd rfl hb) rfl

end Table

theorem V_v12_lin (c : Dev nD) (f : Fin 512) :
    (V m c main_v12 : S512x161.Idx → EReal) (ix2 f (⟨0, by decide⟩ : Fin 161)) = A3 m c (ix1 f) := by
  rw [e_v12 m c, truncf_apply, table_c0]
  exact broadcastInDim_apply _ bcast_S512_S512x1_0 _ _ (ix1 f) (fun a => match a with
    | ⟨0, _⟩ => by show f.val = if (512 : Nat) = 1 then 0 else f.val; rw [if_neg (by decide)])
theorem V_v12_fw (c : Dev nD) (f : Fin 512) (d : Fin 16) :
    (V m c main_v12 : S512x161.Idx → EReal) (ix2 f (⟨1 + d.val, by omega⟩ : Fin 161)) = A1 m c (ix2 f d) := by
  rw [e_v12 m c, truncf_apply, table_c1]
theorem V_v12_fwb (c : Dev nD) (f : Fin 512) (d : Fin 16) :
    (V m c main_v12 : S512x161.Idx → EReal) (ix2 f (⟨17 + d.val, by omega⟩ : Fin 161))
      = A1 m c (ix2 f d) * A2 m c (ix2 f d) := by
  rw [e_v12 m c, truncf_apply, table_c2]; rfl
theorem V_v12_w1 (c : Dev nD) (f : Fin 512) (j : Fin 128) :
    (V m c main_v12 : S512x161.Idx → EReal) (ix2 f (⟨33 + j.val, by omega⟩ : Fin 161)) = A5 m c (ix2 f j) := by
  rw [e_v12 m c, truncf_apply, table_c3]
theorem V_v13 (c : Dev nD) (f : Fin 512) (d : Fin 16) :
    (V m c main_v13 : S512x16.Idx → EReal) (ix2 f d)
      = A1 m c (ix2 f d) * A1 m c (ix2 f d) := by
  have e : (V m c main_v13 : S512x16.Idx → EReal) = (truncf (F := Ideal) (s := S512x16) (φ := .f32) .bf16 (mulf (A1 m c) (A1 m c)) bitsLt_bf16_f32 : S512x16.Idx → EReal) := by
    dsimp only [V, hostOps0]; after_results
  exact congrFun e _
theorem V_v3 (c : Dev nD) (d : Fin 16) :
    (V m c main_v3 : S1x16.Idx → EReal) (ix2 (0 : Fin 1) d) = 0 + ∑ f : Fin 512, A2 m c (ix2 f d) := by
  have e : (V m c main_v3 : S1x16.Idx → EReal) = broadcastInDim S1x16 ![1] bcast_S16_S1x16_1
      (Host.reduceAdd (F := Ideal) (φ := .f32) (A2 m c) (constant (F := Ideal) S_ .f32 0x00000000#32) reducesTo_S512x16_S16_d0 h_S_) := by
    dsimp only [V, hostOps0]; after_results
  rw [e]; exact colsum_row _ d
theorem V_v6 (c : Dev nD) (d : Fin 16) :
    (V m c main_v6 : S1x16.Idx → EReal) (ix2 (0 : Fin 1) d)
      = 0 + ∑ f : Fin 512, A2 m c (ix2 f d) * A2 m c (ix2 f d) := by
  have e : (V m c main_v6 : S1x16.Idx → EReal) = broadcastInDim S1x16 ![1] bcast_S16_S1x16_1
      (Host.reduceAdd (F := Ideal) (φ := .f32) (mulf (F := Ideal) (s := S512x16) (φ := .f32) (A2 m c) (A2 m c)) (constant (F := Ideal) S_ .f32 0x00000000#32) reducesTo_S512x16_S16_d0 h_S_) := by
    dsimp only [V, hostOps0]; after_results
  rw [e]; exact colsum_row _ d
theorem V_v14 (c : Dev nD) (k : Fin 128) (j : Fin 64) :
    (V m c main_v14 : S128x64.Idx → EReal) (ix2 k j) = A7 m c (ix2 k j) := by
  have e : (V m c main_v14 : S128x64.Idx → EReal) = (truncf (F := Ideal) (s := S128x64) (φ := .f32) .bf16 (A7 m c) bitsLt_bf16_f32 : S128x64.Idx → EReal) := by
    dsimp only [V, hostOps0]; after_results
  exact congrFun e _
theorem V_v18 (c : Dev nD) (j : Fin 64) :
    (V m c main_v18 : S1x64.Idx → EReal) (ix2 (0 : Fin 1) j) = A8 m c (ix1 j) := by
  have e : (V m c main_v18 : S1x64.Idx → EReal) = shapeCast S1x64 (A8 m c) shapeCasts_S64_S1x64 := by
    dsimp only [V, hostOps0]; after_results; rfl
  rw [e]; exact shapeCast_row _ _ j
theorem V_v15 (c : Dev nD) (k : Fin 64) (j : Fin 32) :
    (V m c main_v15 : S64x32.Idx → EReal) (ix2 k j) = A9 m c (ix2 k j) := by
  have e : (V m c main_v15 : S64x32.Idx → EReal) = (truncf (F := Ideal) (s := S64x32) (φ := .f32) .bf16 (A9 m c) bitsLt_bf16_f32 : S64x32.Idx → EReal) := by
    dsimp only [V, hostOps0]; after_results
  exact congrFun e _
theorem V_v19 (c : Dev nD) (j : Fin 32) :
    (V m c main_v19 : S1x32.Idx → EReal) (ix2 (0 : Fin 1) j) = A10 m c (ix1 j) := by
  have e : (V m c main_v19 : S1x32.Idx → EReal) = shapeCast S1x32 (A10 m c) shapeCasts_S32_S1x32 := by
    dsimp only [V, hostOps0]; after_results; rfl
  rw [e]; exact shapeCast_row _ _ j
theorem V_v16 (c : Dev nD) (k : Fin 32) :
    (V m c main_v16 : S32x1.Idx → EReal) (ix2 k (0 : Fin 1)) = A11 m c (ix2 k (0 : Fin 1)) := by
  have e : (V m c main_v16 : S32x1.Idx → EReal) = (truncf (F := Ideal) (s := S32x1) (φ := .f32) .bf16 (A11 m c) bitsLt_bf16_f32 : S32x1.Idx → EReal) := by
    dsimp only [V, hostOps0]; after_results
  exact congrFun e _
theorem V_v17 (c : Dev nD) (j : Fin 128) :
    (V m c main_v17 : S1x128.Idx → EReal) (ix2 (0 : Fin 1) j) = A6 m c (ix1 j) := by
  have e : (V m c main_v17 : S1x128.Idx → EReal) = shapeCast S1x128 (A6 m c) shapeCasts_S128_S1x128 := by
    dsimp only [V, hostOps0]; after_results; rfl
  rw [e]; exact shapeCast_row _ _ j
theorem V_v9 (c : Dev nD) :
    (V m c main_v9 : S1x1.Idx → EReal) (ix2 (0 : Fin 1) (0 : Fin 1))
      = (A4 m c (ix1 (0 : Fin 1)) + A13 m c (ix1 (0 : Fin 1)))
        + A12 m c (ix1 (0 : Fin 1)) := by
  have e : (V m c main_v9 : S1x1.Idx → EReal) = shapeCast S1x1 (addf (F := Ideal) (s := S1) (φ := .f32) (addf (F := Ideal) (s := S1) (φ := .f32) (A4 m c) (A13 m c)) (A12 m c)) shapeCasts_S1_S1x1 := by
    dsimp only [V, hostOps0]; after_results; rfl
  rw [e]; exact shapeCast_row _ _ 0

end Cert.KernelIdeal.HostVals

end
-- ==== Proof.KValue.lean ====
/-
  The value the region leaves in the result array, at the ideal values.

  Point `t` of the 8-point grid stages rows 2048·t … 2048·t + 2047 of the batch and the eleven tables whole, and
  writes back rows 2048·t … 2048·t + 2047 of the result.  What it writes is, row by row, the logistic function of the
  row formula over the staged blocks; a block of the batch is the argument's rows, and each table block is the table
  the host lines built, entry by entry a function of the arguments.  The eight written blocks tile the result array,
  so the array ends as `Spec.kerOut` of the fourteen arguments.
-/
import proofs.«180015_j35588099014965_1_alg».proof.Proof.KFrame
import proofs.«180015_j35588099014965_1_alg».proof.Proof.KPayload
import proofs.«180015_j35588099014965_1_alg».proof.Proof.KHost
import proofs.«180015_j35588099014965_1_alg».proof.Proof.Spec
import Idealize.ShloMosaic.Lib.Pipeline.Value
import Idealize.ShloMosaic.Lib.ValueIdx

open scoped BigOperators

noncomputable section

set_option maxRecDepth 16384

namespace Cert.KernelIdeal.KValue

open Cert.KernelIdeal Cert.KernelIdeal.Gen Cert.KernelIdeal.Hand Cert.KernelIdeal.Pay Cert.KernelIdeal.HostVals
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem t_lt (t : Fin cfg0.N) : t.val < 8 := lt_of_lt_of_eq (b := grid0.N) t.isLt N_0

/-- The result array as one function of the argument arrays as launched. -/
abbrev G (c : Dev nD) : S16384x1.Idx → EReal :=
  Cert.Spec.kerOut halfC twoC (A0 m c) (A1 m c) (A2 m c) (A3 m c) (A4 m c) (A5 m c) (A6 m c) (A7 m c) (A8 m c) (A9 m c)
    (A10 m c) (A11 m c) (A12 m c) (A13 m c)

/-! ## The windows' block indices over the grid -/

/-- The batch window's and the result window's block index at point `t` is (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
/-- Window 1's block index is (0, 0) at every point: it stages its whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2's block index is (0, 0) at every point: it stages its whole array. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block index is (0, 0) at every point: it stages its whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is (0, 0) at every point: it stages its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index is (0, 0) at every point: it stages its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is (0, 0) at every point: it stages its whole array. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index is (0, 0) at every point: it stages its whole array. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index is (0, 0) at every point: it stages its whole array. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block index is (0, 0) at every point: it stages its whole array. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block index is (0, 0) at every point: it stages its whole array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11's block index is (0, 0) at every point: it stages its whole array. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-! ## The staged blocks, entry by entry -/

/-- Row `p` of the batch block at point `t` is row 2048·t + p of the batch as launched. -/
theorem blk0_at (c : Dev nD) (t : Fin cfg0.N) (p : Fin 2048) (f : Fin 512) :
    (iblk m c 0 t : Vec Ideal S2048x512 .f32) (ix2 p f)
      = A0 m c (ix2 (⟨t.val * 2048 + p.val, by have := t_lt t; omega⟩ : Fin 16384) f) := by
  unfold iblk
  rw [View.read_apply]
  show V m c main_arg0 _ = _
  rw [V_main_arg0]
  congr 1
  funext a
  apply Fin.ext
  match a with
  | ⟨0, _⟩ => show win0_0.index t (0 : Fin 2) * 2048 + 1 * p.val = t.val * 2048 + p.val; rw [(idx0 t).1]; omega
  | ⟨1, _⟩ => show win0_0.index t (1 : Fin 2) * 512 + 1 * f.val = f.val; rw [(idx0 t).2]; omega

/-! A table's block is the whole table as the region finds it. -/
theorem blk1_at (c : Dev nD) (t : Fin cfg0.N) (y : S512x161.Idx) :
    (iblk m c 1 t : Vec Ideal S512x161 .bf16) y = (V m c main_v12 : S512x161.Idx → EReal) y := by
  unfold iblk
  rw [View.read_apply]
  show V m c main_v12 _ = _
  congr 1
  funext a
  apply Fin.ext
  match a with
  | ⟨0, _⟩ => show win0_1.index t (0 : Fin 2) * 512 + 1 * (y 0).val = (y 0).val; rw [(idx1 t).1]; omega
  | ⟨1, _⟩ => show win0_1.index t (1 : Fin 2) * 161 + 1 * (y 1).val = (y 1).val; rw [(idx1 t).2]; omega
theorem blk2_at (c : Dev nD) (t : Fin cfg0.N) (y : S512x16.Idx) :
    (iblk m c 2 t : Vec Ideal S512x16 .bf16) y = (V m c main_v13 : S512x16.Idx → EReal) y := by
  unfold iblk
  rw [View.read_apply]
  show V m c main_v13 _ = _
  congr 1
  funext a
  apply Fin.ext
  match a with
  | ⟨0, _⟩ => show win0_2.index t (0 : Fin 2) * 512 + 1 * (y 0).val = (y 0).val; rw [(idx2 t).1]; omega
  | ⟨1, _⟩ => show win0_2.index t (1 : Fin 2) * 16 + 1 * (y 1).val = (y 1).val; rw [(idx2 t).2]; omega
theorem blk3_at (c : Dev nD) (t : Fin cfg0.N) (y : S1x16.Idx) :
    (iblk m c 3 t : Vec Ideal S1x16 .f32) y = (V m c main_v3 : S1x16.Idx → EReal) y := by
  unfold iblk
  rw [View.read_apply]
  show V m c main_v3 _ = _
  congr 1
  funext a
  apply Fin.ext
  match a with
  | ⟨0, _⟩ => show win0_3.index t (0 : Fin 2) * 1 + 1 * (y 0).val = (y 0).val; rw [(idx3 t).1]; omega
  | ⟨1, _⟩ => show win0_3.index t (1 : Fin 2) * 16 + 1 * (y 1).val = (y 1).val; rw [(idx3 t).2]; omega
theorem blk4_at (c : Dev nD) (t : Fin cfg0.N) (y : S1x16.Idx) :
    (iblk m c 4 t : Vec Ideal S1x16 .f32) y = (V m c main_v6 : S1x16.Idx → EReal) y := by
  unfold iblk
  rw [View.read_apply]
  show V m c main_v6 _ = _
  congr 1
  funext a
  apply Fin.ext
  match a with
  | ⟨0, _⟩ => show win0_4.index t (0 : Fin 2) * 1 + 1 * (y 0).val = (y 0).val; rw [(idx4 t).1]; omega
  | ⟨1, _⟩ => show win0_4.index t (1 : Fin 2) * 16 + 1 * (y 1).val = (y 1).val; rw [(idx4 t).2]; omega
theorem blk5_at (c : Dev nD) (t : Fin cfg0.N) (y : S128x64.Idx) :
    (iblk m c 5 t : Vec Ideal S128x64 .bf16) y = (V m c main_v14 : S128x64.Idx → EReal) y := by
  unfold iblk
  rw [View.read_apply]
  show V m c main_v14 _ = _
  congr 1
  funext a
  apply Fin.ext
  match a with
  | ⟨0, _⟩ => show win0_5.index t (0 : Fin 2) * 128 + 1 * (y 0).val = (y 0).val; rw [(idx5 t).1]; omega
  | ⟨1, _⟩ => show win0_5.index t (1 : Fin 2) * 64 + 1 * (y 1).val = (y 1).val; rw [(idx5 t).2]; omega
theorem blk6_at (c : Dev nD) (t : Fin cfg0.N) (y : S1x64.Idx) :
    (iblk m c 6 t : Vec Ideal S1x64 .f32) y = (V m c main_v18 : S1x64.Idx → EReal) y := by
  unfold iblk
  rw [View.read_apply]
  show V m c main_v18 _ = _
  congr 1
  funext a
  apply Fin.ext
  match a with
  | ⟨0, _⟩ => show win0_6.index t (0 : Fin 2) * 1 + 1 * (y 0).val = (y 0).val; rw [(idx6 t).1]; omega
  | ⟨1, _⟩ => show win0_6.index t (1 : Fin 2) * 64 + 1 * (y 1).val = (y 1).val; rw [(idx6 t).2]; omega
theorem blk7_at (c : Dev nD) (t : Fin cfg0.N) (y : S64x32.Idx) :
    (iblk m c 7 t : Vec Ideal S64x32 .bf16) y = (V m c main_v15 : S64x32.Idx → EReal) y := by
  unfold iblk
  rw [View.read_apply]
  show V m c main_v15 _ = _
  congr 1
  funext a
  apply Fin.ext
  match a with
  | ⟨0, _⟩ => show win0_7.index t (0 : Fin 2) * 64 + 1 * (y 0).val = (y 0).val; rw [(idx7 t).1]; omega
  | ⟨1, _⟩ => show win0_7.index t (1 : Fin 2) * 32 + 1 * (y 1).val = (y 1).val; rw [(idx7 t).2]; omega
theorem blk8_at (c : Dev nD) (t : Fin cfg0.N) (y : S1x32.Idx) :
    (iblk m c 8 t : Vec Ideal S1x32 .f32) y = (V m c main_v19 : S1x32.Idx → EReal) y := by
  unfold iblk
  rw [View.read_apply]
  show V m c main_v19 _ = _
  congr 1
  funext a
  apply Fin.ext
  match a with
  | ⟨0, _⟩ => show win0_8.index t (0 : Fin 2) * 1 + 1 * (y 0).val = (y 0).val; rw [(idx8 t).1]; omega
  | ⟨1, _⟩ => show win0_8.index t (1 : Fin 2) * 32 + 1 * (y 1).val = (y 1).val; rw [(idx8 t).2]; omega
theorem blk9_at (c : Dev nD) (t : Fin cfg0.N) (y : S32x1.Idx) :
    (iblk m c 9 t : Vec Ideal S32x1 .bf16) y = (V m c main_v16 : S32x1.Idx → EReal) y := by
  unfold iblk
  rw [View.read_apply]
  show V m c main_v16 _ = _
  congr 1
  funext a
  apply Fin.ext
  match a with
  | ⟨0, _⟩ => show win0_9.index t (0 : Fin 2) * 32 + 1 * (y 0).val = (y 0).val; rw [(idx9 t).1]; omega
  | ⟨1, _⟩ => show win0_9.index t (1 : Fin 2) * 1 + 1 * (y 1).val = (y 1).val; rw [(idx9 t).2]; omega
theorem blk10_at (c : Dev nD) (t : Fin cfg0.N) (y : S1x128.Idx) :
    (iblk m c 10 t : Vec Ideal S1x128 .f32) y = (V m c main_v17 : S1x128.Idx → EReal) y := by
  unfold iblk
  rw [View.read_apply]
  show V m c main_v17 _ = _
  congr 1
  funext a
  apply Fin.ext
  match a with
  | ⟨0, _⟩ => show win0_10.index t (0 : Fin 2) * 1 + 1 * (y 0).val = (y 0).val; rw [(idx10 t).1]; omega
  | ⟨1, _⟩ => show win0_10.index t (1 : Fin 2) * 128 + 1 * (y 1).val = (y 1).val; rw [(idx10 t).2]; omega
theorem blk11_at (c : Dev nD) (t : Fin cfg0.N) (y : S1x1.Idx) :
    (iblk m c 11 t : Vec Ideal S1x1 .f32) y = (V m c main_v9 : S1x1.Idx → EReal) y := by
  unfold iblk
  rw [View.read_apply]
  show V m c main_v9 _ = _
  congr 1
  funext a
  apply Fin.ext
  match a with
  | ⟨0, _⟩ => show win0_11.index t (0 : Fin 2) * 1 + 1 * (y 0).val = (y 0).val; rw [(idx11 t).1]; omega
  | ⟨1, _⟩ => show win0_11.index t (1 : Fin 2) * 1 + 1 * (y 1).val = (y 1).val; rw [(idx11 t).2]; omega

/-! ## What a point writes back -/

/-- Row `p` of the result block at point `t` is row 2048·t + p of the result array. -/
theorem emb12 (t : Fin cfg0.N) (p : Fin 2048) :
    ((cfg0.win 12).blk t).view.emb (ix2 p (0 : Fin 1) : S2048x1.Idx)
      = (ix2 (⟨t.val * 2048 + p.val, by have := t_lt t; omega⟩ : Fin 16384) (0 : Fin 1) : S16384x1.Idx) := by
  funext a
  apply Fin.ext
  match a with
  | ⟨0, _⟩ => show win0_12.index t (0 : Fin 2) * 2048 + 1 * p.val = t.val * 2048 + p.val; rw [(idx12 t).1]; omega
  | ⟨1, _⟩ => show win0_12.index t (1 : Fin 2) * 1 + 1 * 0 = 0; rw [(idx12 t).2]

/-- Point `t` writes back block `t` of `G`. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  unfold out0_12
  rw [View.canon_unit_zero hz]
  simp only [View.ld_unit_zero (S := S2048x512) hz, View.ld_unit_zero (S := S512x161) hz, View.ld_unit_zero (S := S512x16) hz, View.ld_unit_zero (S := S1x16) hz, View.ld_unit_zero (S := S128x64) hz, View.ld_unit_zero (S := S1x64) hz, View.ld_unit_zero (S := S64x32) hz, View.ld_unit_zero (S := S1x32) hz, View.ld_unit_zero (S := S32x1) hz, View.ld_unit_zero (S := S1x128) hz, View.ld_unit_zero (S := S1x1) hz]
  funext j
  obtain ⟨p, q, rfl⟩ : ∃ (p : Fin 2048) (q : Fin 1), j = ix2 p q := ⟨j 0, j 1, eq_ix2 j⟩
  obtain rfl : q = 0 := Subsingleton.elim _ _
  show k0_pay1 (F := Ideal) (k0_pay3 (iblk m c 0 t) (iblk m c 1 t)) (k0_pay4 (iblk m c 0 t) (iblk m c 1 t) (iblk m c 2 t) (iblk m c 3 t) (iblk m c 4 t))
      (k0_pay5 (iblk m c 0 t) (iblk m c 1 t) (iblk m c 10 t)) (iblk m c 5 t) (iblk m c 6 t) (iblk m c 7 t) (iblk m c 8 t) (iblk m c 9 t) (iblk m c 11 t) (ix2 p (0 : Fin 1))
    = G m c (((cfg0.win 12).blk t).view.emb (ix2 p (0 : Fin 1) : S2048x1.Idx))
  rw [emb12]
  refine (pay_at (iblk m c 0 t) (iblk m c 1 t) (iblk m c 2 t) (iblk m c 3 t) (iblk m c 4 t) (iblk m c 10 t) (iblk m c 5 t) (iblk m c 6 t) (iblk m c 7 t) (iblk m c 8 t) (iblk m c 9 t) (iblk m c 11 t) p).trans ?_
  have e0 : (fun f : Fin 512 => (iblk m c 0 t : Vec Ideal S2048x512 .f32) (ix2 p f))
      = fun f : Fin 512 => A0 m c (ix2 (⟨t.val * 2048 + p.val, by have := t_lt t; omega⟩ : Fin 16384) f) := funext fun f => blk0_at m c t p f
  have e1 : (fun f : Fin 512 => (iblk m c 1 t : Vec Ideal S512x161 .bf16) (ix2 f (⟨0, by decide⟩ : Fin 161)))
      = fun f : Fin 512 => A3 m c (ix1 f) := funext fun f => (blk1_at m c t _).trans (V_v12_lin m c f)
  have e2 : (fun (f : Fin 512) (d : Fin 16) => (iblk m c 1 t : Vec Ideal S512x161 .bf16) (ix2 f (⟨1 + d.val, by omega⟩ : Fin 161)))
      = fun (f : Fin 512) (d : Fin 16) => A1 m c (ix2 f d) := funext fun f => funext fun d => (blk1_at m c t _).trans (V_v12_fw m c f d)
  have e3 : (fun (f : Fin 512) (d : Fin 16) => (iblk m c 1 t : Vec Ideal S512x161 .bf16) (ix2 f (⟨17 + d.val, by omega⟩ : Fin 161)))
      = fun (f : Fin 512) (d : Fin 16) => A1 m c (ix2 f d) * A2 m c (ix2 f d) := funext fun f => funext fun d => (blk1_at m c t _).trans (V_v12_fwb m c f d)
  have e4 : (fun (f : Fin 512) (d : Fin 16) => (iblk m c 2 t : Vec Ideal S512x16 .bf16) (ix2 f d))
      = fun (f : Fin 512) (d : Fin 16) => A1 m c (ix2 f d) * A1 m c (ix2 f d) := funext fun f => funext fun d => (blk2_at m c t _).trans (V_v13 m c f d)
  have e5 : (fun d : Fin 16 => (iblk m c 3 t : Vec Ideal S1x16 .f32) (ix2 (0 : Fin 1) d))
      = fun d : Fin 16 => 0 + ∑ f : Fin 512, A2 m c (ix2 f d) := funext fun d => (blk3_at m c t _).trans (V_v3 m c d)
  have e6 : (fun d : Fin 16 => (iblk m c 4 t : Vec Ideal S1x16 .f32) (ix2 (0 : Fin 1) d))
      = fun d : Fin 16 => 0 + ∑ f : Fin 512, A2 m c (ix2 f d) * A2 m c (ix2 f d) := funext fun d => (blk4_at m c t _).trans (V_v6 m c d)
  have e7 : (fun (f : Fin 512) (j : Fin 128) => (iblk m c 1 t : Vec Ideal S512x161 .bf16) (ix2 f (⟨33 + j.val, by omega⟩ : Fin 161)))
      = fun (f : Fin 512) (j : Fin 128) => A5 m c (ix2 f j) := funext fun f => funext fun j => (blk1_at m c t _).trans (V_v12_w1 m c f j)
  have e8 : (fun j : Fin 128 => (iblk m c 10 t : Vec Ideal S1x128 .f32) (ix2 (0 : Fin 1) j))
      = fun j : Fin 128 => A6 m c (ix1 j) := funext fun j => (blk10_at m c t _).trans (V_v17 m c j)
  have e9 : (fun (k : Fin 128) (j : Fin 64) => (iblk m c 5 t : Vec Ideal S128x64 .bf16) (ix2 k j))
      = fun (k : Fin 128) (j : Fin 64) => A7 m c (ix2 k j) := funext fun k => funext fun j => (blk5_at m c t _).trans (V_v14 m c k j)
  have e10 : (fun j : Fin 64 => (iblk m c 6 t : Vec Ideal S1x64 .f32) (ix2 (0 : Fin 1) j))
      = fun j : Fin 64 => A8 m c (ix1 j) := funext fun j => (blk6_at m c t _).trans (V_v18 m c j)
  have e11 : (fun (k : Fin 64) (j : Fin 32) => (iblk m c 7 t : Vec Ideal S64x32 .bf16) (ix2 k j))
      = fun (k : Fin 64) (j : Fin 32) => A9 m c (ix2 k j) := funext fun k => funext fun j => (blk7_at m c t _).trans (V_v15 m c k j)
  have e12 : (fun j : Fin 32 => (iblk m c 8 t : Vec Ideal S1x32 .f32) (ix2 (0 : Fin 1) j))
      = fun j : Fin 32 => A10 m c (ix1 j) := funext fun j => (blk8_at m c t _).trans (V_v19 m c j)
  have e13 : (fun k : Fin 32 => (iblk m c 9 t : Vec Ideal S32x1 .bf16) (ix2 k (0 : Fin 1)))
      = fun k : Fin 32 => A11 m c (ix2 k (0 : Fin 1)) := funext fun k => (blk9_at m c t _).trans (V_v16 m c k)
  have e14 : (iblk m c 11 t : Vec Ideal S1x1 .f32) (ix2 (0 : Fin 1) (0 : Fin 1))
      = (A4 m c (ix1 (0 : Fin 1)) + A13 m c (ix1 (0 : Fin 1))) + A12 m c (ix1 (0 : Fin 1)) := (blk11_at m c t _).trans (V_v9 m c)
  rw [e0, e1, e2, e3, e4, e5, e6, e7, e8, e9, e10, e11, e12, e13, e14]
  rfl

/-! ## The whole array -/

theorem mem_blk (t : Fin cfg0.N) (i : S16384x1.Idx) :
    i ∈ ((cfg0.win 12).blk t).view.set ↔ ∀ a : Fin 2, win0_12.index t a * S2048x1.size a ≤ (i a).val ∧ (i a).val < win0_12.index t a * S2048x1.size a + S2048x1.size a := by
  show i ∈ ((View.whole main_v20).slice (win0_12.rect t)).set ↔ _
  rw [View.set_slice_whole, Rect.mem_set_unit]
  exact Iff.rfl

/-- Row `r` of the result lies in the block of point `r / 2048`. -/
theorem cover (i : S16384x1.Idx) : ∃ t : Fin cfg0.N, (cfg0.win 12).flush t = true ∧ i ∈ ((cfg0.win 12).blk t).view.set := by
  have h0 : (i 0).val < 16384 := (i 0).isLt
  have h1 : (i 1).val < 1 := (i 1).isLt
  refine ⟨⟨(i 0).val / 2048, by rw [show cfg0.N = 8 from N_0]; omega⟩, flush0_12 _, ?_⟩
  rw [mem_blk]
  intro a
  match a with
  | ⟨0, _⟩ =>
    show win0_12.index _ (0 : Fin 2) * 2048 ≤ (i 0).val ∧ (i 0).val < win0_12.index _ (0 : Fin 2) * 2048 + 2048
    rw [(idx12 _).1]
    show (i 0).val / 2048 * 2048 ≤ (i 0).val ∧ (i 0).val < (i 0).val / 2048 * 2048 + 2048
    omega
  | ⟨1, _⟩ =>
    show win0_12.index _ (1 : Fin 2) * 1 ≤ (i 1).val ∧ (i 1).val < win0_12.index _ (1 : Fin 2) * 1 + 1
    rw [(idx12 _).2]
    omega

/-- After the run the result array is `G`. -/
theorem final (c : Dev nD) : (dats m 0 c).arrAt 12 cfg0.N = G m c :=
  (dats m 0 c).arrAt_eq_of_cover 12 (G m c) (fun t _ => flushed_eq m c t) (cover)

/-- The run, read: the result array at `G` of the arguments, the arguments unchanged. -/
theorem run : θ_run defs (onTc (τ := τ) (main (F := Ideal))) ⟨m, fun _ => 0, ρ⟩ fun r => ∀ c : Dev nD,
      r.2.mem ((c.tc : Thread nD τ).loc main_v20) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 12).trans (final m c), kept m r h c⟩) (run_main m ρ)

end Cert.KernelIdeal.KValue

end
-- ==== Proof.RefValue.lean ====
/-
  The reference's result array, at the ideal values, is `Spec.refOut` of its arguments.

  The reference's host lines are read one at a time at an index: the four matrix products and the three sums as
  finite sums (a sum with its initial value in front), the broadcasts and reshapes as re-indexings, the three
  `max(·, 0)` as written, and its last five lines — negate, exponential, one plus, one over — are the logistic
  function by its definition.
-/
import proofs.«180015_j35588099014965_1_alg».proof.Proof.Gen.ReferenceIdeal.Read
import proofs.«180015_j35588099014965_1_alg».proof.Proof.Spec
import Idealize.ShloMosaic.Lib.ValueIdx
import Idealize.ShloMosaic.Lib.IdealHost
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx

abbrev halfC : EReal := Ideal.ofBits .f32 0x3F000000#32

section Stages

variable (x0 : (⟨S16384x512, .f32⟩ : BufTy).Contents (Elt Ideal)) (x1 x2 : (⟨S512x16, .f32⟩ : BufTy).Contents (Elt Ideal))
  (x3 : (⟨S512, .f32⟩ : BufTy).Contents (Elt Ideal)) (x4 : (⟨S1, .f32⟩ : BufTy).Contents (Elt Ideal))
  (x5 : (⟨S512x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))
  (x9 : (⟨S64x32, .f32⟩ : BufTy).Contents (Elt Ideal)) (x10 : (⟨S32, .f32⟩ : BufTy).Contents (Elt Ideal))
  (x11 : (⟨S32x1, .f32⟩ : BufTy).Contents (Elt Ideal)) (x12 x13 : (⟨S1, .f32⟩ : BufTy).Contents (Elt Ideal))

/-- Two rank-1 indices are equal when their coordinate is. -/
local macro "ix1_tac" : tactic => `(tactic| (funext a; match a with | ⟨0, _⟩ => rfl))
/-- Two rank-2 indices are equal when their two coordinates are. -/
local macro "ix2_tac" : tactic => `(tactic| (funext a; match a with | ⟨0, _⟩ => rfl | ⟨1, _⟩ => rfl))

/-- The linear term: row `r` of the batch against the linear weights, plus the linear bias. -/
theorem v4_at (r : Fin 16384) :
    val_main_v4 (F := Ideal) x0 x3 x4 (ix2 r (0 : Fin 1))
      = (∑ f : Fin 512, x0 (ix2 r f) * x3 (ix1 f)) + x4 (ix1 (0 : Fin 1)) := by
  rw [val_main_v4_apply, Ideal.addf_def, val_main_v1_apply, val_main_v3_apply, val_main_v2_apply]
  refine congrArg₂ (· + ·) (Finset.sum_congr rfl fun k _ => ?_) (congrArg x4 (by ix1_tac))
  rw [val_main_v0_apply]
  exact congrArg₂ (· * ·) (congrArg x0 (by ix2_tac)) (congrArg x3 (by ix1_tac))

/-- The embedding sum plus the bias column sum, at row `r` and embedding coordinate `d`. -/
theorem v9_at (r : Fin 16384) (d : Fin 16) :
    val_main_v9 (F := Ideal) x0 x1 x2 (ix2 r d)
      = (∑ f : Fin 512, x0 (ix2 r f) * x1 (ix2 f d)) + (0 + ∑ f : Fin 512, x2 (ix2 f d)) := by
  rw [val_main_v9_apply, Ideal.addf_def, val_main_v5_apply, val_main_v8_apply, val_main_v7_apply, val_main_v6_apply,
    val_main_cst_apply, Ideal.ofBits_def, Ideal.ofBits_zero_f32]
  refine congrArg₂ (· + ·) (Finset.sum_congr rfl fun k _ => ?_) (congrArg (0 + ·) (Finset.sum_congr rfl fun k _ => ?_))
  · exact congrArg₂ (· * ·) (congrArg x0 (by ix2_tac)) (congrArg x1 (by ix2_tac))
  · exact congrArg x2 (by ix2_tac)

/-- The sum over the features of the squared embeddings, at row `r` and embedding coordinate `d`. -/
theorem v19_at (r : Fin 16384) (d : Fin 16) :
    val_main_v19 (F := Ideal) x0 x1 x2 (ix2 r d)
      = 0 + ∑ f : Fin 512, (x0 (ix2 r f) * x1 (ix2 f d) + x2 (ix2 f d)) * (x0 (ix2 r f) * x1 (ix2 f d) + x2 (ix2 f d)) := by
  rw [val_main_v19_apply, val_main_cst_0_apply, Ideal.ofBits_def, Ideal.ofBits_zero_f32]
  refine congrArg (0 + ·) (Finset.sum_congr rfl fun k _ => ?_)
  have h17 : val_main_v17 (F := Ideal) x0 x1 x2 (idx_main_v19 (ix2 r d) k)
      = x0 (ix2 r k) * x1 (ix2 k d) + x2 (ix2 k d) := by
    rw [val_main_v17_apply, Ideal.addf_def, val_main_v14_apply, Ideal.mulf_def, val_main_v12_apply, val_main_v10_apply,
      val_main_v13_apply, val_main_v11_apply, val_main_v16_apply, val_main_v15_apply]
    exact congrArg₂ (· + ·) (congrArg₂ (· * ·) (congrArg x0 (by ix2_tac)) (congrArg x1 (by ix2_tac))) (congrArg x2 (by ix2_tac))
  rw [val_main_v18_apply, Ideal.mulf_def, h17]

/-- Half the sum, over the embedding coordinates, of the square of the sum minus the sum of the squares. -/
theorem v25_at (r : Fin 16384) :
    val_main_v25 (F := Ideal) x0 x1 x2 (ix2 r (0 : Fin 1))
      = halfC * (0 + ∑ d : Fin 16,
          (((∑ f : Fin 512, x0 (ix2 r f) * x1 (ix2 f d)) + (0 + ∑ f : Fin 512, x2 (ix2 f d)))
              * ((∑ f : Fin 512, x0 (ix2 r f) * x1 (ix2 f d)) + (0 + ∑ f : Fin 512, x2 (ix2 f d)))
            - (0 + ∑ f : Fin 512, (x0 (ix2 r f) * x1 (ix2 f d) + x2 (ix2 f d)) * (x0 (ix2 r f) * x1 (ix2 f d) + x2 (ix2 f d))))) := by
  rw [val_main_v25_apply, Ideal.mulf_def, val_main_v24_apply, val_main_cst_2_apply, Ideal.ofBits_def,
    val_main_v23_apply, val_main_v22_apply, val_main_cst_1_apply, Ideal.ofBits_def, Ideal.ofBits_zero_f32]
  refine congrArg (halfC * ·) (congrArg (0 + ·) (Finset.sum_congr rfl fun k _ => ?_))
  have e : idx_main_v22 (idx_main_v23 (ix2 r (0 : Fin 1))) k = ix2 r k := by ix2_tac
  rw [e, val_main_v21_apply, Ideal.subf_def, val_main_v20_apply, Ideal.mulf_def, v9_at, v19_at]

/-- The first dense layer at row `r`. -/
theorem v30_at (r : Fin 16384) (j : Fin 128) :
    val_main_v30 (F := Ideal) x0 x5 x6 (ix2 r j)
      = Cert.Spec.h1 (fun f => x0 (ix2 r f)) (fun f j => x5 (ix2 f j)) (fun j => x6 (ix1 j)) j := by
  unfold Cert.Spec.h1
  rw [val_main_v30_apply, Ideal.maximumf_def, val_main_call0_v0_apply, val_main_call0_cst_apply, Ideal.ofBits_def,
    Ideal.ofBits_zero_f32, val_main_v29_apply, Ideal.addf_def, val_main_v26_apply, val_main_v28_apply, val_main_v27_apply]
  refine congrArg (max · 0) (congrArg₂ (· + ·) (Finset.sum_congr rfl fun k _ => ?_) (congrArg x6 (by ix1_tac)))
  exact congrArg₂ (· * ·) (congrArg x0 (by ix2_tac)) (congrArg x5 (by ix2_tac))

/-- The second dense layer at row `r`. -/
theorem v35_at (r : Fin 16384) (j : Fin 64) :
    val_main_v35 (F := Ideal) x0 x5 x6 x7 x8 (ix2 r j)
      = Cert.Spec.h2 (fun f => x0 (ix2 r f)) (fun f j => x5 (ix2 f j)) (fun j => x6 (ix1 j))
          (fun k j => x7 (ix2 k j)) (fun j => x8 (ix1 j)) j := by
  unfold Cert.Spec.h2
  rw [val_main_v35_apply, Ideal.maximumf_def, val_main_call1_v0_apply, val_main_call1_cst_apply, Ideal.ofBits_def,
    Ideal.ofBits_zero_f32, val_main_v34_apply, Ideal.addf_def, val_main_v31_apply, val_main_v33_apply, val_main_v32_apply]
  refine congrArg (max · 0) (congrArg₂ (· + ·) (Finset.sum_congr rfl fun k _ => ?_) (congrArg x8 (by ix1_tac)))
  have e : lidx_main_v31 (ix2 r j) k = ix2 r k := by ix2_tac
  rw [e, v30_at]
  exact congrArg₂ (· * ·) rfl (congrArg x7 (by ix2_tac))

/-- The third dense layer at row `r`. -/
theorem v40_at (r : Fin 16384) (j : Fin 32) :
    val_main_v40 (F := Ideal) x0 x5 x6 x7 x8 x9 x10 (ix2 r j)
      = Cert.Spec.h3 (fun f => x0 (ix2 r f)) (fun f j => x5 (ix2 f j)) (fun j => x6 (ix1 j))
          (fun k j => x7 (ix2 k j)) (fun j => x8 (ix1 j)) (fun k j => x9 (ix2 k j)) (fun j => x10 (ix1 j)) j := by
  unfold Cert.Spec.h3
  rw [val_main_v40_apply, Ideal.maximumf_def, val_main_call2_v0_apply, val_main_call2_cst_apply, Ideal.ofBits_def,
    Ideal.ofBits_zero_f32, val_main_v39_apply, Ideal.addf_def, val_main_v36_apply, val_main_v38_apply, val_main_v37_apply]
  refine congrArg (max · 0) (congrArg₂ (· + ·) (Finset.sum_congr rfl fun k _ => ?_) (congrArg x10 (by ix1_tac)))
  have e : lidx_main_v36 (ix2 r j) k = ix2 r k := by ix2_tac
  rw [e, v35_at]
  exact congrArg₂ (· * ·) rfl (congrArg x9 (by ix2_tac))

/-- The deep part at row `r`: the last weight against the third layer, plus its bias. -/
theorem v44_at (r : Fin 16384) :
    val_main_v44 (F := Ideal) x0 x5 x6 x7 x8 x9 x10 x11 x12 (ix2 r (0 : Fin 1))
      = Cert.Spec.deep (fun f => x0 (ix2 r f)) (fun f j => x5 (ix2 f j)) (fun j => x6 (ix1 j))
          (fun k j => x7 (ix2 k j)) (fun j => x8 (ix1 j)) (fun k j => x9 (ix2 k j)) (fun j => x10 (ix1 j))
          (fun k => x11 (ix2 k (0 : Fin 1))) + x12 (ix1 (0 : Fin 1)) := by
  unfold Cert.Spec.deep
  rw [val_main_v44_apply, Ideal.addf_def, val_main_v41_apply, val_main_v43_apply, val_main_v42_apply]
  refine congrArg₂ (· + ·) (Finset.sum_congr rfl fun k _ => ?_) (congrArg x12 (by ix1_tac))
  have e : lidx_main_v41 (ix2 r (0 : Fin 1)) k = ix2 r k := by ix2_tac
  rw [e, v40_at]
  exact congrArg₂ (· * ·) rfl (congrArg x11 (by ix2_tac))

/-- The total before the logistic function, at row `r`. -/
theorem v49_at (r : Fin 16384) :
    val_main_v49 (F := Ideal) x0 x1 x2 x3 x4 x5 x6 x7 x8 x9 x10 x11 x12 x13 (ix2 r (0 : Fin 1))
      = Cert.Spec.refRow halfC (fun f => x0 (ix2 r f)) (fun f => x3 (ix1 f)) (fun f d => x1 (ix2 f d)) (fun f d => x2 (ix2 f d))
          (x4 (ix1 (0 : Fin 1))) (fun f j => x5 (ix2 f j)) (fun j => x6 (ix1 j)) (fun k j => x7 (ix2 k j)) (fun j => x8 (ix1 j))
          (fun k j => x9 (ix2 k j)) (fun j => x10 (ix1 j)) (fun k => x11 (ix2 k (0 : Fin 1)))
          (x12 (ix1 (0 : Fin 1))) (x13 (ix1 (0 : Fin 1))) := by
  unfold Cert.Spec.refRow
  rw [val_main_v49_apply, Ideal.addf_def, val_main_v46_apply, Ideal.addf_def, val_main_v45_apply, Ideal.addf_def,
    v4_at, v25_at, v44_at, val_main_v48_apply, val_main_v47_apply]
  exact congrArg (_ + ·) (congrArg x13 (by ix1_tac))

/-- The reference's last five lines are the logistic function of the total. -/
theorem v55_at (i : S16384x1.Idx) :
    val_main_v55 (F := Ideal) x0 x1 x2 x3 x4 x5 x6 x7 x8 x9 x10 x11 x12 x13 i
      = Ideal.logistic (val_main_v49 (F := Ideal) x0 x1 x2 x3 x4 x5 x6 x7 x8 x9 x10 x11 x12 x13 i) := by
  rw [val_main_v55_apply, Ideal.hostDivf_def, val_main_v54_apply, val_main_cst_4_apply, Ideal.ofBits_def, Ideal.ofBits_one_f32,
    val_main_v53_apply, Ideal.addf_def, val_main_v52_apply, val_main_cst_3_apply, Ideal.ofBits_def, Ideal.ofBits_one_f32,
    val_main_v51_apply, Ideal.hostUnary_exp_def, val_main_v50_apply, Ideal.hostNegf_def, Ideal.negf_def]
  rfl

end Stages

theorem ref_eq (x0 : (⟨S16384x512, .f32⟩ : BufTy).Contents (Elt Ideal)) (x1 x2 : (⟨S512x16, .f32⟩ : BufTy).Contents (Elt Ideal))
    (x3 : (⟨S512, .f32⟩ : BufTy).Contents (Elt Ideal)) (x4 : (⟨S1, .f32⟩ : BufTy).Contents (Elt Ideal))
    (x5 : (⟨S512x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal))
    (x9 : (⟨S64x32, .f32⟩ : BufTy).Contents (Elt Ideal)) (x10 : (⟨S32, .f32⟩ : BufTy).Contents (Elt Ideal))
    (x11 : (⟨S32x1, .f32⟩ : BufTy).Contents (Elt Ideal)) (x12 x13 : (⟨S1, .f32⟩ : BufTy).Contents (Elt Ideal)) :
    (val_main_v55 (F := Ideal) x0 x1 x2 x3 x4 x5 x6 x7 x8 x9 x10 x11 x12 x13 : S16384x1.Idx → EReal)
      = Cert.Spec.refOut halfC x0 x1 x2 x3 x4 x5 x6 x7 x8 x9 x10 x11 x12 x13 := by
  funext i
  obtain ⟨r, q, rfl⟩ : ∃ (r : Fin 16384) (q : Fin 1), i = ix2 r q := ⟨i 0, i 1, eq_ix2 i⟩
  obtain rfl : q = 0 := Subsingleton.elim _ _
  unfold Cert.Spec.refOut
  rw [v55_at, v49_at]

end Cert.ReferenceIdeal.RefValue

end
-- ==== Proof.Finite.lean ====
/-
  From the precondition to real entries.

  The precondition is the conjunction, over the fourteen argument arrays, of "every entry's absolute value is below
  plus infinity".  At the ideal values an extended real whose absolute value is below plus infinity is neither
  infinity, so it is a real number.
-/
import proofs.«180015_j35588099014965_1_alg».proof.Pre_finite_inputs
import proofs.«180015_j35588099014965_1_alg».proof.Proof.Gen.Pre_finite_inputs
import proofs.«180015_j35588099014965_1_alg».proof.Proof.Spec
import Idealize.ShloMosaic.Lib.ReduceAll
import Idealize.ShloMosaic.Lib.ValueIdx
import Idealize.ShloMosaic.PureOps.Ideal.Laws

open scoped BigOperators

noncomputable section

namespace Cert.Finite

open Idealize.ShloMosaic Cert.Spec Cert.LibReal

/-- The word 0x7F800000 denotes plus infinity. -/
theorem ofBits_inf : Ideal.ofBits .f32 0x7F800000#32 = (⊤ : EReal) := by
  simp [Ideal.ofBits, Ideal.ieee]

/-- A one-bit word made from a boolean is one only when the boolean is true. -/
theorem of_ofBool_eq_one {b : Bool} (h : BitVec.ofBool b = 1#1) : b = true := by
  revert h; cases b <;> decide

/-- An extended real whose absolute value `max x (-x)` is below plus infinity is a real number: at `⊤` the maximum
    is `⊤`, and at `⊥` it is `-⊥ = ⊤`. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [ofBits_inf] at h'
  have hlt : max x (-x) < ⊤ := of_decide_eq_true (of_ofBool_eq_one h')
  induction x using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- One array's conjunct of the precondition: the reduce by `and` of "absolute value below plus infinity" over all
    axes is one, so every entry is real. -/
theorem allReal_of_reduce {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ValueIdx.ix0 = 1#1) :
    AllReal (s := s) a := by
  intro i
  exact isReal_of_abs_lt (a i) (Host.reduce_andi_all _ _ hr hu ValueIdx.ix0 e i)

/-- If the printed finiteness predicate of the fourteen arrays is all ones, every entry of every array is real. -/
theorem allReal_of_pre [hP : Cert.Pre_finite_inputs.Facts]
    (a0 : FVec Ideal Cert.Pre_finite_inputs.S16384x512 .f32) (a1 : FVec Ideal Cert.Pre_finite_inputs.S512x16 .f32) (a2 : FVec Ideal Cert.Pre_finite_inputs.S512x16 .f32) (a3 : FVec Ideal Cert.Pre_finite_inputs.S512 .f32) (a4 : FVec Ideal Cert.Pre_finite_inputs.S1 .f32) (a5 : FVec Ideal Cert.Pre_finite_inputs.S512x128 .f32) (a6 : FVec Ideal Cert.Pre_finite_inputs.S128 .f32) (a7 : FVec Ideal Cert.Pre_finite_inputs.S128x64 .f32) (a8 : FVec Ideal Cert.Pre_finite_inputs.S64 .f32) (a9 : FVec Ideal Cert.Pre_finite_inputs.S64x32 .f32) (a10 : FVec Ideal Cert.Pre_finite_inputs.S32 .f32) (a11 : FVec Ideal Cert.Pre_finite_inputs.S32x1 .f32) (a12 : FVec Ideal Cert.Pre_finite_inputs.S1 .f32) (a13 : FVec Ideal Cert.Pre_finite_inputs.S1 .f32)
    (h : Cert.Pre_finite_inputs.fn (F := Ideal) a0 a1 a2 a3 a4 a5 a6 a7 a8 a9 a10 a11 a12 a13 = (fun _ => 1#1)) :
    AllReal (s := Cert.Pre_finite_inputs.S16384x512) a0 ∧ AllReal (s := Cert.Pre_finite_inputs.S512x16) a1 ∧ AllReal (s := Cert.Pre_finite_inputs.S512x16) a2 ∧ AllReal (s := Cert.Pre_finite_inputs.S512) a3 ∧ AllReal (s := Cert.Pre_finite_inputs.S1) a4 ∧ AllReal (s := Cert.Pre_finite_inputs.S512x128) a5 ∧ AllReal (s := Cert.Pre_finite_inputs.S128) a6 ∧ AllReal (s := Cert.Pre_finite_inputs.S128x64) a7 ∧ AllReal (s := Cert.Pre_finite_inputs.S64) a8 ∧ AllReal (s := Cert.Pre_finite_inputs.S64x32) a9 ∧ AllReal (s := Cert.Pre_finite_inputs.S32) a10 ∧ AllReal (s := Cert.Pre_finite_inputs.S32x1) a11 ∧ AllReal (s := Cert.Pre_finite_inputs.S1) a12 ∧ AllReal (s := Cert.Pre_finite_inputs.S1) a13 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_reduce a0 _ _ _ e0, allReal_of_reduce a1 _ _ _ e1, allReal_of_reduce a2 _ _ _ e2,
    allReal_of_reduce a3 _ _ _ e3, allReal_of_reduce a4 _ _ _ e4, allReal_of_reduce a5 _ _ _ e5,
    allReal_of_reduce a6 _ _ _ e6, allReal_of_reduce a7 _ _ _ e7, allReal_of_reduce a8 _ _ _ e8,
    allReal_of_reduce a9 _ _ _ e9, allReal_of_reduce a10 _ _ _ e10, allReal_of_reduce a11 _ _ _ e11,
    allReal_of_reduce a12 _ _ _ e12, allReal_of_reduce a13 _ _ _ e13⟩

end Cert.Finite

end
-- ==== Proof.Consts.lean ====
/-
  The two scalar literals of the kernel's body, as the real numbers their bit patterns denote.
-/
import Idealize.ShloMosaic.PureOps.Ideal
import proofs.«180015_j35588099014965_1_alg».proof.Proof.LibReal

open scoped BigOperators

noncomputable section

namespace Cert.Consts

open Idealize.ShloMosaic

/-- The pattern of `2.0` denotes the real two. -/
theorem ofBits_two : Ideal.ofBits .f32 0x40000000#32 = ((2 : ℝ) : EReal) := by
  simp [Ideal.ofBits, Ideal.ieee, -EReal.coe_mul]; norm_num

/-- The pattern of `0.5` denotes the real one half. -/
theorem ofBits_half : Ideal.ofBits .f32 0x3F000000#32 = ((1 / 2 : ℝ) : EReal) := by
  simp [Ideal.ofBits, Ideal.ieee, -EReal.coe_mul]; norm_num

theorem half_isReal : Cert.LibReal.IsReal (Ideal.ofBits .f32 0x3F000000#32) := ⟨1 / 2, ofBits_half⟩

end Cert.Consts

end
-- ==== Proof.lean ====
/-
  The certificate's five claims.

  The kernel computes, for each of 16384 batch rows, the logistic function of the sum of a linear term, a second-order
  factorization term, a three-layer dense network and three scalar offsets.  It gets the second-order term from the
  expansion  Σ_f (x_f w_fd + b_fd)² = Σ_f x_f² w_fd² + 2 Σ_f x_f (w_fd b_fd) + Σ_f b_fd²,  so that every sum over the
  512 features is a matrix product against a table the host lines prepare; the reference sums the squares as written.
  Over the reals the two are one number (`Spec.row_eq`), and the precondition makes every input a real, so at the ideal
  values — a change of float format the identity, a matrix product the exact sum — the two result arrays are one
  function of the arguments (`Spec.out_eq`).

  The three frames: the kernel's program (at the word level and at the ideal values) is its host lines followed by one
  pipelined region whose body reads its input blocks and overwrites its output block, so it ends, faults nowhere and
  leaves the argument arrays as launched; the reference is host lines only.  The idealization rewrote nothing.
-/
import proofs.«180015_j35588099014965_1_alg».proof.Defs
import proofs.«180015_j35588099014965_1_alg».proof.Proof.Gen.Kernel
import proofs.«180015_j35588099014965_1_alg».proof.Proof.Gen.KernelIdeal
import proofs.«180015_j35588099014965_1_alg».proof.Proof.Gen.ReferenceIdeal
import proofs.«180015_j35588099014965_1_alg».proof.Proof.Gen.Pre_finite_inputs
import proofs.«180015_j35588099014965_1_alg».proof.Proof.Gen.ReferenceIdeal.Run
import proofs.«180015_j35588099014965_1_alg».proof.Proof.Gen.ReferenceIdeal.Read
import proofs.«180015_j35588099014965_1_alg».proof.Proof.KFrame
import proofs.«180015_j35588099014965_1_alg».proof.Proof.KFrameBits
import proofs.«180015_j35588099014965_1_alg».proof.Proof.KValue
import proofs.«180015_j35588099014965_1_alg».proof.Proof.RefValue
import proofs.«180015_j35588099014965_1_alg».proof.Proof.Finite
import proofs.«180015_j35588099014965_1_alg».proof.Proof.Consts
import proofs.«180015_j35588099014965_1_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at one function of the arguments: the kernel's at `Spec.kerOut`, the
    reference's at `Spec.refOut`, and on the real arguments the precondition admits these are equal. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq]
  obtain ⟨e0, e1, e2, e3, e4, e5, e6, e7, e8, e9, e10, e11, e12, e13⟩ := hagree c
  rw [e0, e1, e2, e3, e4, e5, e6, e7, e8, e9, e10, e11, e12, e13, Cert.ReferenceIdeal.RefValue.ref_eq]
  obtain ⟨h0, h1, h2, h3, h4, h5, h6, h7, h8, h9, h10, h11, h12, h13⟩ := Cert.Finite.allReal_of_pre _ _ _ _ _ _ _ _ _ _ _ _ _ _ (hpre c)
  exact (Cert.Spec.out_eq _ _ Cert.Consts.half_isReal Cert.Consts.ofBits_two _ _ _ _ _ _ _ _ _ _ _ _ _ _
    h0 h1 h2 h3 h4 h5 h6 h7 h8 h9 h10 h11 h12 h13).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
